-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x64 : Shape := ⟨3, ![2, 10000, 64]⟩
abbrev S2x10000x3 : Shape := ⟨3, ![2, 10000, 3]⟩
abbrev S120000 : Shape := ⟨1, ![120000]⟩
abbrev S1024x3 : Shape := ⟨2, ![1024, 3]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S2x10000x64 : S_.BroadcastsInDim S2x10000x64 (![] : Fin 0 → Fin S2x10000x64.rank)
  reducesTo_S2x10000x64_S_d0_1_2 : S2x10000x64.ReducesTo [0, 1, 2] S_
  h_S_ : 0 < S_.numel
  bcast_S_S2x10000x3 : S_.BroadcastsInDim S2x10000x3 (![] : Fin 0 → Fin S2x10000x3.rank)
  reducesTo_S2x10000x3_S_d0_1_2 : S2x10000x3.ReducesTo [0, 1, 2] S_
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x1024 .f32) (main_arg7 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S256x1024 .f32 := Host.absf main_arg6
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S2x10000x64 .f32) (main_arg1 : FVec F S2x10000x3 .f32) (main_arg2 : IVec S120000 32) (main_arg3 : IVec S120000 32) (main_arg4 : FVec F S1024x3 .f32) (main_arg5 : FVec F S1024 .f32) (main_arg6 : FVec F S256x1024 .f32) (main_arg7 : FVec F S256 .f32) : IVec S_ 1 :=
  let main_v0 : FVec F S2x10000x64 .f32 := Host.absf main_arg0
  let main_cst : FVec F S_ .f32 := constant S_ .f32 0x7F800000#32
  let main_v1 : FVec F S2x10000x64 .f32 := broadcastInDim S2x10000x64 ![] bcast_S_S2x10000x64 main_cst
  let main_v2 : IVec S2x10000x64 1 := cmpf .olt main_v0 main_v1
  let main_c : IVec S_ 1 := constantI S_ 1 1#1
  let main_v3 : IVec S_ 1 := (fun x v => Host.reduce IntOp.andi x v reducesTo_S2x10000x64_S_d0_1_2 h_S_) main_v2 main_c
  let main_v4 : FVec F S2x10000x3 .f32 := Host.absf main_arg1
  let main_cst_0 : FVec F S_ .f32 := constant S_ .f32 0x7F800000#32
  let main_v5 : FVec F S2x10000x3 .f32 := broadcastInDim S2x10000x3 ![] bcast_S_S2x10000x3 main_cst_0
  let main_v6 : IVec S2x10000x3 1 := cmpf .olt main_v4 main_v5
  let main_c_1 : IVec S_ 1 := constantI S_ 1 1#1
  let main_v7 : IVec S_ 1 := (fun x v => Host.reduce IntOp.andi x v reducesTo_S2x10000x3_S_d0_1_2 h_S_) main_v6 main_c_1
  let main_v8 : IVec S_ 1 := andi main_v3 main_v7
  let main_v9 : FVec F S1024x3 .f32 := Host.absf main_arg4
  let main_cst_2 : FVec F S_ .f32 := constant S_ .f32 0x7F800000#32
  let main_v10 : FVec F S1024x3 .f32 := broadcastInDim S1024x3 ![] bcast_S_S1024x3 main_cst_2
  let main_v11 : IVec S1024x3 1 := cmpf .olt main_v9 main_v10
  let main_c_3 : IVec S_ 1 := constantI S_ 1 1#1
  let main_v12 : IVec S_ 1 := (fun x v => Host.reduce IntOp.andi x v reducesTo_S1024x3_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_v13 main_v16
-- ==== Kernel.lean ====
abbrev S2x10000x64 : Shape := ⟨3, ![2, 10000, 64]⟩
abbrev S2x10000x3 : Shape := ⟨3, ![2, 10000, 3]⟩
abbrev S120000 : Shape := ⟨1, ![120000]⟩
abbrev S1024x3 : Shape := ⟨2, ![1024, 3]⟩
abbrev S1024 : Shape := ⟨1, ![1024]⟩
abbrev S256x1024 : Shape := ⟨2, ![256, 1024]⟩
abbrev S256 : Shape := ⟨1, ![256]⟩
abbrev S_ : Shape := ⟨0, ![]⟩
abbrev S120000x1 : Shape := ⟨2, ![120000, 1]⟩
abbrev S2x120000x3 : Shape := ⟨3, ![2, 120000, 3]⟩
abbrev S2x120000x64 : Shape := ⟨3, ![2, 120000, 64]⟩
abbrev S3x1024 : Shape := ⟨2, ![3, 1024]⟩
abbrev S2x120000x1024 : Shape := ⟨3, ![2, 120000, 1024]⟩
abbrev S1x1600x3 : Shape := ⟨3, ![1, 1600, 3]⟩
abbrev S1x1600x64 : Shape := ⟨3, ![1, 1600, 64]⟩
abbrev S1x1600x1024 : Shape := ⟨3, ![1, 1600, 1024]⟩
abbrev S1600x3 : Shape := ⟨2, ![1600, 3]⟩
abbrev S1600x64 : Shape := ⟨2, ![1600, 64]⟩
abbrev S1600x1 : Shape := ⟨2, ![1600, 1]⟩
abbrev S1x1024 : Shape := ⟨2, ![1, 1024]⟩
abbrev S1600x1024 : Shape := ⟨2, ![1600, 1024]⟩
abbrev S10000x1024 : Shape := ⟨2, ![10000, 1024]⟩
abbrev S2x10000x1024 : Shape := ⟨3, ![2, 10000, 1024]⟩
abbrev S1024x256 : Shape := ⟨2, ![1024, 256]⟩
abbrev S2x10000x256 : Shape := ⟨3, ![2, 10000, 256]⟩
abbrev S1x1000x1024 : Shape := ⟨3, ![1, 1000, 1024]⟩
abbrev S1x1000x64 : Shape := ⟨3, ![1, 1000, 64]⟩
abbrev S1x1000x256 : Shape := ⟨3, ![1, 1000, 256]⟩
abbrev S1000x1024 : Shape := ⟨2, ![1000, 1024]⟩
abbrev S1000x64 : Shape := ⟨2, ![1000, 64]⟩
abbrev S1000x256 : Shape := ⟨2, ![1000, 256]⟩
abbrev S1x256 : Shape := ⟨2, ![1, 256]⟩

abbrev nBuf : Space → Nat
  | .hbm => 46
  | .vmem => 17
  | .smem => 0
  | _ => 0

abbrev bufTy : (tb : Table) → Fin (tcTables nBuf tb) → BufTy
  | .hbm, ⟨0, _⟩ => ⟨S2x10000x64, .f32⟩
  | .hbm, ⟨1, _⟩ => ⟨S2x10000x3, .f32⟩
  | .hbm, ⟨2, _⟩ => ⟨S120000, .i32⟩
  | .hbm, ⟨3, _⟩ => ⟨S120000, .i32⟩
  | .hbm, ⟨4, _⟩ => ⟨S1024x3, .f32⟩
  | .hbm, ⟨5, _⟩ => ⟨S1024, .f32⟩
  | .hbm, ⟨6, _⟩ => ⟨S256x1024, .f32⟩
  | .hbm, ⟨7, _⟩ => ⟨S256, .f32⟩
  | .hbm, ⟨8, _⟩ => ⟨S_, .i32⟩
  | .hbm, ⟨9, _⟩ => ⟨S120000, .i32⟩
  | .hbm, ⟨10, _⟩ => ⟨S120000, .i1⟩
  | .hbm, ⟨11, _⟩ => ⟨S_, .i32⟩
  | .hbm, ⟨12, _⟩ => ⟨S120000, .i32⟩
  | .hbm, ⟨13, _⟩ => ⟨S120000, .i32⟩
  | .hbm, ⟨14, _⟩ => ⟨S120000, .i32⟩
  | .hbm, ⟨15, _⟩ => ⟨S120000x1, .i32⟩
  | .hbm, ⟨16, _⟩ => ⟨S2x120000x3, .f32⟩
  | .hbm, ⟨17, _⟩ => ⟨S_, .i32⟩
  | .hbm, ⟨18, _⟩ => ⟨S120000, .i32⟩
  | .hbm, ⟨19, _⟩ => ⟨S120000, .i1⟩
  | .hbm, ⟨20, _⟩ => ⟨S_, .i32⟩
  | .hbm, ⟨21, _⟩ => ⟨S120000, .i32⟩
  | .hbm, ⟨22, _⟩ => ⟨S120000, .i32⟩
  | .hbm, ⟨23, _⟩ => ⟨S120000, .i32⟩
  | .hbm, ⟨24, _⟩ => ⟨S120000x1, .i32⟩
  | .hbm, ⟨25, _⟩ => ⟨S2x120000x3, .f32⟩
  | .hbm, ⟨26, _⟩ => ⟨S2x120000x3, .f32⟩
  | .hbm, ⟨27, _⟩ => ⟨S_, .i32⟩
  | .hbm, ⟨28, _⟩ => ⟨S120000, .i32⟩
  | .hbm, ⟨29, _⟩ => ⟨S120000, .i1⟩
  | .hbm, ⟨30, _⟩ => ⟨S_, .i32⟩
  | .hbm, ⟨31, _⟩ => ⟨S120000, .i32⟩
  | .hbm, ⟨32, _⟩ => ⟨S120000, .i32⟩
  | .hbm, ⟨33, _⟩ => ⟨S120000, .i32⟩
  | .hbm, ⟨34, _⟩ => ⟨S120000x1, .i32⟩
  | .hbm, ⟨35, _⟩ => ⟨S2x120000x64, .f32⟩
  | .hbm, ⟨36, _⟩ => ⟨S3x1024, .f32⟩
  | .hbm, ⟨37, _⟩ => ⟨S2x120000x1024, .f32⟩
  | .hbm, ⟨38, _⟩ => ⟨S_, .f32⟩
  | .hbm, ⟨39, _⟩ => ⟨S10000x1024, .f32⟩
  | .hbm, ⟨40, _⟩ => ⟨S120000x1, .i32⟩
  | .hbm, ⟨41, _⟩ => ⟨S2x10000x1024, .f32⟩
  | .hbm, ⟨42, _⟩ => ⟨S2x10000x1024, .f32⟩
  | .hbm, ⟨43, _⟩ => ⟨S1024x256, .f32⟩
  | .hbm, ⟨44, _⟩ => ⟨S1024x256, .bf16⟩
  | .hbm, ⟨45, _⟩ => ⟨S2x10000x256, .f32⟩
  | .local _ .vmem, ⟨0, _⟩ => ⟨S1x1600x3, .f32⟩
  | .local _ .vmem, ⟨1, _⟩ => ⟨S1x1600x3, .f32⟩
  | .local _ .vmem, ⟨2, _⟩ => ⟨S1x1600x64, .f32⟩
  | .local _ .vmem, ⟨3, _⟩ => ⟨S1x1600x64, .f32⟩
  | .local _ .vmem, ⟨4, _⟩ => ⟨S3x1024, .f32⟩
  | .local _ .vmem, ⟨5, _⟩ => ⟨S1024, .f32⟩
  | .local _ .vmem, ⟨6, _⟩ => ⟨S1x1600x1024, .f32⟩
  | .local _ .vmem, ⟨7, _⟩ => ⟨S1x1600x1024, .f32⟩
  | .local _ .vmem, ⟨8, _⟩ => ⟨S1x1000x1024, .f32⟩
  | .local _ .vmem, ⟨9, _⟩ => ⟨S1x1000x1024, .f32⟩
  | .local _ .vmem, ⟨10, _⟩ => ⟨S1x1000x64, .f32⟩
  | .local _ .vmem, ⟨11, _⟩ => ⟨S1x1000x64, .f32⟩
  | .local _ .vmem, ⟨12, _⟩ => ⟨S1024, .f32⟩
  | .local _ .vmem, ⟨13, _⟩ => ⟨S1024x256, .bf16⟩
  | .local _ .vmem, ⟨14, _⟩ => ⟨S256, .f32⟩
  | .local _ .vmem, ⟨15, _⟩ => ⟨S1x1000x256, .f32⟩
  | .local _ .vmem, ⟨16, _⟩ => ⟨S1x1000x256, .f32⟩
  | _, _ => ⟨S2x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 75], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1600x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1600x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S_S120000 : S_.BroadcastsInDim S120000 (![] : Fin 0 → Fin S120000.rank)
  bcast_S120000_S120000x1_0 : S120000.BroadcastsInDim S120000x1 (![0] : Fin 1 → Fin S120000x1.rank)
  transposes_S1024x3_S3x1024_1_0 : S1024x3.Transposes [1, 0] S3x1024
  inb_S1x1600x3_S1x1600x3_0_0_0 : ∀ a, (![0, 0, 0] : Fin 3 → Nat) a + S1x1600x3.size a ≤ S1x1600x3.size a
  h_S1x1600x3 : 0 < S1x1600x3.numel
  shapeCasts_S1x1600x3_S1600x3 : S1x1600x3.ShapeCasts S1600x3
  inb_S1x1600x64_S1x1600x64_0_0_0 : ∀ a, (![0, 0, 0] : Fin 3 → Nat) a + S1x1600x64.size a ≤ S1x1600x64.size a
  h_S1x1600x64 : 0 < S1x1600x64.numel
  shapeCasts_S1x1600x64_S1600x64 : S1x1600x64.ShapeCasts S1600x64
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  inb_S1024_S1024_0 : ∀ a, (![0] : Fin 1 → Nat) a + S1024.size a ≤ S1024.size a
  h_S1024 : 0 < S1024.numel
  slices_S1600x3_o0_0_S1600x1 : S1600x3.Slices ![0, 0] S1600x1
  slices_S3x1024_o0_0_S1x1024 : S3x1024.Slices ![0, 0] S1x1024
  broadcasts_S1600x1_S1600x1024 : S1600x1.Broadcasts S1600x1024
  broadcasts_S1x1024_S1600x1024 : S1x1024.Broadcasts S1600x1024
  slices_S1600x3_o0_1_S1600x1 : S1600x3.Slices ![0, 1] S1600x1
  slices_S3x1024_o1_0_S1x1024 : S3x1024.Slices ![1, 0] S1x1024
  slices_S1600x3_o0_2_S1600x1 : S1600x3.Slices ![0, 2] S1600x1
  slices_S3x1024_o2_0_S1x1024 : S3x1024.Slices ![2, 0] S1x1024
  shapeCasts_S1024_S1x1024 : S1024.ShapeCasts S1x1024
  concatenates_S1600x64_S1600x64_S1600x64_S1600x64_S1600x64_S1600x64_S1600x64_S1600x64_S1600x64_S1600x64_S1600x64_S1600x64_S1600x64_S1600x64_S1600x64_S1600x64_S1600x1024_d1 : Shape.Concatenates [S1600x64, S1600x64, S1600x64, S1600x64, S1600x64, S1600x64, S1600x64, S1600x64, S1600x64, S1600x64, S1600x64, S1600x64, S1600x64, S1600x64, S1600x64, S1600x64] S1600x1024 1
  inb_S1x1600x1024_S1x1600x1024_0_0_0 : ∀ a, (![0, 0, 0] : Fin 3 → Nat) a + S1x1600x1024.size a ≤ S1x1600x1024.size a
  h_S1x1600x1024 : 0 < S1x1600x1024.numel
  shapeCasts_S1x1600x1024_S1600x1024 : S1x1600x1024.ShapeCasts S1600x1024
  shapeCasts_S1600x1024_S1x1600x1024 : S1600x1024.ShapeCasts S1x1600x1024
  bcast_S_S10000x1024 : S_.BroadcastsInDim S10000x1024 (![] : Fin 0 → Fin S10000x1024.rank)
  bcast_S10000x1024_S2x10000x1024_1_2 : S10000x1024.BroadcastsInDim S2x10000x1024 (![1, 2] : Fin 2 → Fin S2x10000x1024.rank)
  transposes_S256x1024_S1024x256_1_0 : S256x1024.Transposes [1, 0] S1024x256
  bitsLt_bf16_f32 : FTy.bits .bf16 < FTy.bits .f32
  inb_S1x1000x1024_S1x1000x1024_0_0_0 : ∀ a, (![0, 0, 0] : Fin 3 → Nat) a + S1x1000x1024.size a ≤ S1x1000x1024.size a
  h_S1x1000x1024 : 0 < S1x1000x1024.numel
  shapeCasts_S1x1000x1024_S1000x1024 : S1x1000x1024.ShapeCasts S1000x1024
  inb_S1x1000x64_S1x1000x64_0_0_0 : ∀ a, (![0, 0, 0] : Fin 3 → Nat) a + S1x1000x64.size a ≤ S1x1000x64.size a
  h_S1x1000x64 : 0 < S1x1000x64.numel
  shapeCasts_S1x1000x64_S1000x64 : S1x1000x64.ShapeCasts S1000x64
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  concatenates_S1000x64_S1000x64_S1000x64_S1000x64_S1000x64_S1000x64_S1000x64_S1000x64_S1000x64_S1000x64_S1000x64_S1000x64_S1000x64_S1000x64_S1000x64_S1000x64_S1000x1024_d1 : Shape.Concatenates [S1000x64, S1000x64, S1000x64, S1000x64, S1000x64, S1000x64, S1000x64, S1000x64, S1000x64, S1000x64, S1000x64, S1000x64, S1000x64, S1000x64, S1000x64, S1000x64] S1000x1024 1
  broadcasts_S1x1024_S1000x1024 : S1x1024.Broadcasts S1000x1024
  shapeCasts_S256_S1x256 : S256.ShapeCasts S1x256
  broadcasts_S1x256_S1000x256 : S1x256.Broadcasts S1000x256
  inb_S1x1000x256_S1x1000x256_0_0_0 : ∀ a, (![0, 0, 0] : Fin 3 → Nat) a + S1x1000x256.size a ≤ S1x1000x256.size a
  h_S1x1000x256 : 0 < S1x1000x256.numel
  shapeCasts_S1x1000x256_S1000x256 : S1x1000x256.ShapeCasts S1000x256
  shapeCasts_S1000x256_S1x1000x256 : S1000x256.ShapeCasts S1x1000x256
  gather_S2x10000x3_S120000x1_S2x120000x3_02_1_n_n_1_1_213_wf : GatherDims.WF S2x10000x3 S120000x1 S2x120000x3 [0, 2] [1] [] [1] [] 1 ![2, 1, 3]
  gather_S2x10000x64_S120000x1_S2x120000x64_02_1_n_n_1_1_2164_wf : GatherDims.WF S2x10000x64 S120000x1 S2x120000x64 [0, 2] [1] [] [1] [] 1 ![2, 1, 64]
  scatter_S2x10000x1024_S120000x1_S2x120000x1024_02_1_1_1_wf : ScatterDims.WF S2x10000x1024 S120000x1 S2x120000x1024 [0, 2] [1] [1] 1
  dot_S1000x1024_S1024x256_S1000x256_1_0_0_1_n_n_wf : DotDims.WF S1000x1024 S1024x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1600x3.size a ≤ S2x120000x3.size a
  hwx0_0 : ∀ i : grid0.Coords, EltTy.bits .f32 = 32 ∨ (Rect.block (s := S2x120000x3) S1x1600x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1600x64.size a ≤ S2x120000x64.size a
  hwx0_1 : ∀ i : grid0.Coords, EltTy.bits .f32 = 32 ∨ (Rect.block (s := S2x120000x64) S1x1600x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x1024.size a
  hwx0_2 : ∀ i : grid0.Coords, EltTy.bits .f32 = 32 ∨ (Rect.block (s := S3x1024) S3x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1600x1024.size a ≤ S2x120000x1024.size a
  hwx0_4 : ∀ i : grid0.Coords, EltTy.bits .f32 = 32 ∨ (Rect.block (s := S2x120000x1024) S1x1600x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1000x1024.size a ≤ S2x10000x1024.size a
  hwx1_0 : ∀ i : grid1.Coords, EltTy.bits .f32 = 32 ∨ (Rect.block (s := S2x10000x1024) S1x1000x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1000x64.size a ≤ S2x10000x64.size a
  hwx1_1 : ∀ i : grid1.Coords, EltTy.bits .f32 = 32 ∨ (Rect.block (s := S2x10000x64) S1x1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x256.size a
  hwx1_3 : ∀ i : grid1.Coords, EltTy.bits .bf16 = 32 ∨ (Rect.block (s := S1024x256) S1024x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1000x256.size a ≤ S2x10000x256.size a
  hwx1_5 : ∀ i : grid1.Coords, EltTy.bits .f32 = 32 ∨ (Rect.block (s := S2x10000x256) S1x1000x256.size (cc1_transform_5 i) (hinb1_5 i)).WholeWords (EltTy.packing .f32)

variable [Facts₀]

def gather_S2x10000x3_S120000x1_S2x120000x3_02_1_n_n_1_1_213 : GatherDims S2x10000x3 S120000x1 S2x120000x3 where
  offsetDims := [0, 2]
  collapsedSliceDims := [1]
  operandBatchingDims := []
  startIndicesBatchingDims := []
  startIndexMap := [1]
  indexVectorDim := 1
  sliceSizes := ![2, 1, 3]
  wf := gather_S2x10000x3_S120000x1_S2x120000x3_02_1_n_n_1_1_213_wf
def gather_S2x10000x64_S120000x1_S2x120000x64_02_1_n_n_1_1_2164 : GatherDims S2x10000x64 S120000x1 S2x120000x64 where
  offsetDims := [0, 2]
  collapsedSliceDims := [1]
  operandBatchingDims := []
  startIndicesBatchingDims := []
  startIndexMap := [1]
  indexVectorDim := 1
  sliceSizes := ![2, 1, 64]
  wf := gather_S2x10000x64_S120000x1_S2x120000x64_02_1_n_n_1_1_2164_wf
def scatter_S2x10000x1024_S120000x1_S2x120000x1024_02_1_1_1 : ScatterDims S2x10000x1024 S120000x1 S2x120000x1024 where
  updateWindowDims := [0, 2]
  insertedWindowDims := [1]
  scatterDimsToOperandDims := [1]
  indexVectorDim := 1
  wf := scatter_S2x10000x1024_S120000x1_S2x120000x1024_02_1_1_1_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf

abbrev win0_0 : Pipeline.Window sig grid0 :=
  Pipeline.Window.ofSpec (Memref.whole main_v14) S1x1600x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x1600x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1600x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S1x1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x10000x64 : Shape := ⟨3, ![2, 10000, 64]⟩
abbrev S2x10000x3 : Shape := ⟨3, ![2, 10000, 3]⟩
abbrev S120000 : Shape := ⟨1, ![120000]⟩
abbrev S1024x3 : Shape := ⟨2, ![1024, 3]⟩
abbrev S1024 : Shape := ⟨1, ![1024]⟩
abbrev S256x1024 : Shape := ⟨2, ![256, 1024]⟩
abbrev S256 : Shape := ⟨1, ![256]⟩
abbrev S1x2x1x10000x1x64 : Shape := ⟨6, ![1, 2, 1, 10000, 1, 64]⟩
abbrev S1x2x1x10000x16x64 : Shape := ⟨6, ![1, 2, 1, 10000, 16, 64]⟩
abbrev S2x10000x1024 : Shape := ⟨3, ![2, 10000, 1024]⟩
abbrev S_ : Shape := ⟨0, ![]⟩
abbrev S120000x1 : Shape := ⟨2, ![120000, 1]⟩
abbrev S2x120000x3 : Shape := ⟨3, ![2, 120000, 3]⟩
abbrev S2x120000x1024 : Shape := ⟨3, ![2, 120000, 1024]⟩
abbrev S1x1x1024 : Shape := ⟨3, ![1, 1, 1024]⟩
abbrev S10000x1024 : Shape := ⟨2, ![10000, 1024]⟩
abbrev S2x10000x256 : Shape := ⟨3, ![2, 10000, 256]⟩
abbrev S1x1x256 : Shape := ⟨3, ![1, 1, 256]⟩

abbrev nBuf : Space → Nat
  | .hbm => 66
  | .vmem => 0
  | .smem => 0
  | _ => 0

abbrev bufTy : (tb : Table) → Fin (tcTables nBuf tb) → BufTy
  | .hbm, ⟨0, _⟩ => ⟨S2x10000x64, .f32⟩
  | .hbm, ⟨1, _⟩ => ⟨S2x10000x3, .f32⟩
  | .hbm, ⟨2, _⟩ => ⟨S120000, .i32⟩
  | .hbm, ⟨3, _⟩ => ⟨S120000, .i32⟩
  | .hbm, ⟨4, _⟩ => ⟨S1024x3, .f32⟩
  | .hbm, ⟨5, _⟩ => ⟨S1024, .f32⟩
  | .hbm, ⟨6, _⟩ => ⟨S256x1024, .f32⟩
  | .hbm, ⟨7, _⟩ => ⟨S256, .f32⟩
  | .hbm, ⟨8, _⟩ => ⟨S1x2x1x10000x1x64, .f32⟩
  | .hbm, ⟨9, _⟩ => ⟨S1x2x1x10000x16x64, .f32⟩
  | .hbm, ⟨10, _⟩ => ⟨S2x10000x1024, .f32⟩
  | .hbm, ⟨11, _⟩ => ⟨S_, .i32⟩
  | .hbm, ⟨12, _⟩ => ⟨S120000, .i32⟩
  | .hbm, ⟨13, _⟩ => ⟨S120000, .i1⟩
  | .hbm, ⟨14, _⟩ => ⟨S_, .i32⟩
  | .hbm, ⟨15, _⟩ => ⟨S120000, .i32⟩
  | .hbm, ⟨16, _⟩ => ⟨S120000, .i32⟩
  | .hbm, ⟨17, _⟩ => ⟨S120000, .i32⟩
  | .hbm, ⟨18, _⟩ => ⟨S120000x1, .i32⟩
  | .hbm, ⟨19, _⟩ => ⟨S2x120000x3, .f32⟩
  | .hbm, ⟨20, _⟩ => ⟨S_, .i32⟩
  | .hbm, ⟨21, _⟩ => ⟨S120000, .i32⟩
  | .hbm, ⟨22, _⟩ => ⟨S120000, .i1⟩
  | .hbm, ⟨23, _⟩ => ⟨S_, .i32⟩
  | .hbm, ⟨24, _⟩ => ⟨S120000, .i32⟩
  | .hbm, ⟨25, _⟩ => ⟨S120000, .i32⟩
  | .hbm, ⟨26, _⟩ => ⟨S120000, .i32⟩
  | .hbm, ⟨27, _⟩ => ⟨S120000x1, .i32⟩
  | .hbm, ⟨28, _⟩ => ⟨S2x120000x3, .f32⟩
  | .hbm, ⟨29, _⟩ => ⟨S2x120000x3, .f32⟩
  | .hbm, ⟨30, _⟩ => ⟨S2x120000x1024, .f32⟩
  | .hbm, ⟨31, _⟩ => ⟨S1x1x1024, .f32⟩
  | .hbm, ⟨32, _⟩ => ⟨S2x120000x1024, .f32⟩
  | .hbm, ⟨33, _⟩ => ⟨S2x120000x1024, .f32⟩
  | .hbm, ⟨34, _⟩ => ⟨S_, .f32⟩
  | .hbm, ⟨35, _⟩ => ⟨S2x120000x1024, .f32⟩
  | .hbm, ⟨36, _⟩ => ⟨S2x120000x1024, .f32⟩
  | .hbm, ⟨37, _⟩ => ⟨S_, .i32⟩
  | .hbm, ⟨38, _⟩ => ⟨S120000, .i32⟩
  | .hbm, ⟨39, _⟩ => ⟨S120000, .i1⟩
  | .hbm, ⟨40, _⟩ => ⟨S_, .i32⟩
  | .hbm, ⟨41, _⟩ => ⟨S120000, .i32⟩
  | .hbm, ⟨42, _⟩ => ⟨S120000, .i32⟩
  | .hbm, ⟨43, _⟩ => ⟨S120000, .i32⟩
  | .hbm, ⟨44, _⟩ => ⟨S120000x1, .i32⟩
  | .hbm, ⟨45, _⟩ => ⟨S2x120000x1024, .f32⟩
  | .hbm, ⟨46, _⟩ => ⟨S2x120000x1024, .f32⟩
  | .hbm, ⟨47, _⟩ => ⟨S_, .f32⟩
  | .hbm, ⟨48, _⟩ => ⟨S10000x1024, .f32⟩
  | .hbm, ⟨49, _⟩ => ⟨S120000x1, .i32⟩
  | .hbm, ⟨50, _⟩ => ⟨S2x10000x1024, .f32⟩
  | .hbm, ⟨51, _⟩ => ⟨S2x10000x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S2x10000x1024, .f32⟩
  | .hbm, ⟨57, _⟩ => ⟨S2x10000x1024, .f32⟩
  | .hbm, ⟨58, _⟩ => ⟨S2x10000x1024, .f32⟩
  | .hbm, ⟨59, _⟩ => ⟨S2x10000x256, .f32⟩
  | .hbm, ⟨60, _⟩ => ⟨S1x1x256, .f32⟩
  | .hbm, ⟨61, _⟩ => ⟨S2x10000x256, .f32⟩
  | .hbm, ⟨62, _⟩ => ⟨S2x10000x256, .f32⟩
  | .hbm, ⟨63, _⟩ => ⟨S_, .f32⟩
  | .hbm, ⟨64, _⟩ => ⟨S2x10000x256, .f32⟩
  | .hbm, ⟨65, _⟩ => ⟨S2x10000x256, .f32⟩
  | _, _ => ⟨S2x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call2_cst : Ref sig .tc := ⟨.hbm, 63, rfl⟩
abbrev main_call2_v0 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  shapeCasts_S2x10000x64_S1x2x1x10000x1x64 : S2x10000x64.ShapeCasts S1x2x1x10000x1x64
  bcast_S1x2x1x10000x1x64_S1x2x1x10000x16x64_0_1_2_3_4_5 : S1x2x1x10000x1x64.BroadcastsInDim S1x2x1x10000x16x64 (![0, 1, 2, 3, 4, 5] : Fin 6 → Fin S1x2x1x10000x16x64.rank)
  shapeCasts_S1x2x1x10000x16x64_S2x10000x1024 : S1x2x1x10000x16x64.ShapeCasts S2x10000x1024
  bcast_S_S120000 : S_.BroadcastsInDim S120000 (![] : Fin 0 → Fin S120000.rank)
  bcast_S120000_S120000x1_0 : S120000.BroadcastsInDim S120000x1 (![0] : Fin 1 → Fin S120000x1.rank)
  bcast_S1024_S1x1x1024_2 : S1024.BroadcastsInDim S1x1x1024 (![2] : Fin 1 → Fin S1x1x1024.rank)
  bcast_S1x1x1024_S2x120000x1024_0_1_2 : S1x1x1024.BroadcastsInDim S2x120000x1024 (![0, 1, 2] : Fin 3 → Fin S2x120000x1024.rank)
  bcast_S_S2x120000x1024 : S_.BroadcastsInDim S2x120000x1024 (![] : Fin 0 → Fin S2x120000x1024.rank)
  bcast_S_S10000x1024 : S_.BroadcastsInDim S10000x1024 (![] : Fin 0 → Fin S10000x1024.rank)
  bcast_S10000x1024_S2x10000x1024_1_2 : S10000x1024.BroadcastsInDim S2x10000x1024 (![1, 2] : Fin 2 → Fin S2x10000x1024.rank)
  bcast_S_S1024 : S_.BroadcastsInDim S1024 (![] : Fin 0 → Fin S1024.rank)
  bcast_S1x1x1024_S2x10000x1024_0_1_2 : S1x1x1024.BroadcastsInDim S2x10000x1024 (![0, 1, 2] : Fin 3 → Fin S2x10000x1024.rank)
  bcast_S256_S1x1x256_2 : S256.BroadcastsInDim S1x1x256 (![2] : Fin 1 → Fin S1x1x256.rank)
  bcast_S1x1x256_S2x10000x256_0_1_2 : S1x1x256.BroadcastsInDim S2x10000x256 (![0, 1, 2] : Fin 3 → Fin S2x10000x256.rank)
  bcast_S_S2x10000x256 : S_.BroadcastsInDim S2x10000x256 (![] : Fin 0 → Fin S2x10000x256.rank)
  gather_S2x10000x3_S120000x1_S2x120000x3_02_1_n_n_1_1_213_wf : GatherDims.WF S2x10000x3 S120000x1 S2x120000x3 [0, 2] [1] [] [1] [] 1 ![2, 1, 3]
  dot_S2x120000x3_S1024x3_S2x120000x1024_2_1_01_0_n_n_wf : DotDims.WF S2x120000x3 S1024x3 S2x120000x1024 [2] [1] [0, 1] [0] [] []
  gather_S2x10000x1024_S120000x1_S2x120000x1024_02_1_n_n_1_1_211024_wf : GatherDims.WF S2x10000x1024 S120000x1 S2x120000x1024 [0, 2] [1] [] [1] [] 1 ![2, 1, 1024]
  scatter_S2x10000x1024_S120000x1_S2x120000x1024_02_1_1_1_wf : ScatterDims.WF S2x10000x1024 S120000x1 S2x120000x1024 [0, 2] [1] [1] 1
  dot_S2x10000x1024_S256x1024_S2x10000x256_2_1_01_0_n_n_wf : DotDims.WF S2x10000x1024 S256x1024 S2x10000x256 [2] [1] [0, 1] [0] [] []

variable [Facts₀]

def gather_S2x10000x3_S120000x1_S2x120000x3_02_1_n_n_1_1_213 : GatherDims S2x10000x3 S120000x1 S2x120000x3 where
  offsetDims := [0, 2]
  collapsedSliceDims := [1]
  operandBatchingDims := []
  startIndicesBatchingDims := []
  startIndexMap := [1]
  indexVectorDim := 1
  sliceSizes := ![2, 1, 3]
  wf := gather_S2x10000x3_S120000x1_S2x120000x3_02_1_n_n_1_1_213_wf
def dot_S2x120000x3_S1024x3_S2x120000x1024_2_1_01_0_n_n : DotDims S2x120000x3 S1024x3 S2x120000x1024 where
  lhsContracting := [2]
  rhsContracting := [1]
  lhsNonContracting := [0, 1]
  rhsNonContracting := [0]
  lhsBatch := []
  rhsBatch := []
  wf := dot_S2x120000x3_S1024x3_S2x120000x1024_2_1_01_0_n_n_wf
def gather_S2x10000x1024_S120000x1_S2x120000x1024_02_1_n_n_1_1_211024 : GatherDims S2x10000x1024 S120000x1 S2x120000x1024 where
  offsetDims := [0, 2]
  collapsedSliceDims := [1]
  operandBatchingDims := []
  startIndicesBatchingDims := []
  startIndexMap := [1]
  indexVectorDim := 1
  sliceSizes := ![2, 1, 1024]
  wf := gather_S2x10000x1024_S120000x1_S2x120000x1024_02_1_n_n_1_1_211024_wf
def scatter_S2x10000x1024_S120000x1_S2x120000x1024_02_1_1_1 : ScatterDims S2x10000x1024 S120000x1 S2x120000x1024 where
  updateWindowDims := [0, 2]
  insertedWindowDims := [1]
  scatterDimsToOperandDims := [1]
  indexVectorDim := 1
  wf := scatter_S2x10000x1024_S120000x1_S2x120000x1024_02_1_1_1_wf
def dot_S2x10000x1024_S256x1024_S2x10000x256_2_1_01_0_n_n : DotDims S2x10000x1024 S256x1024 S2x10000x256 where
  lhsContracting := [2]
  rhsContracting := [1]
  lhsNonContracting := [0, 1]
  rhsNonContracting := [0]
  lhsBatch := []
  rhsBatch := []
  wf := dot_S2x10000x1024_S256x1024_S2x10000x256_2_1_01_0_n_n_wf

class Facts : Prop extends Facts₀ where

variable [Facts]
-- ==== Proof.HostGlue.lean ====
/-
  What the buffers hold when each of the kernel program's two regions is entered, as functions of the launch memory.

  Before the first region the host computes, from the arguments: the edge directions (positions gathered at the
  wrapped source index minus positions gathered at the wrapped destination index), the 64 source features gathered
  at the wrapped source index, and the transposed direction weights. Between the regions it scatter-adds the first
  region's output rows into a zero array at the destination indices, and transposes (and narrows) the output weights.
  No host operation and no region writes an argument, so an argument's buffer reads back to the launch memory.
-/
import proofs.«158358_j86723979640941_1_alg».proof.Proof.Gen.KernelIdeal.Frame
import proofs.«158358_j86723979640941_1_alg».proof.Proof.Gen.ReferenceIdeal.Read
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.SL.Sem Idealize.ShloMosaic.StableHlo
open Cert.ReferenceIdeal.Read (val_main_v17 val_main_v28 val_main_v32 val_main_v33)

variable (m : (ℓ : Loc nD τ sig) → Buf (Elt Ideal) ℓ) (ρ : Dev nD → PrngReg)

/-- A buffer none of the operations before the first region writes holds its launch contents there. -/
macro "first_stretch_keeps" : tactic =>
  `(tactic| exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- A buffer none of the operations between the regions writes holds there what the first region left. -/
macro "second_stretch_keeps" : tactic =>
  `(tactic| exact StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## At the first region's entry -/

theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by first_stretch_keeps
    _ = m ((c : Thread nD τ).loc main_arg5) := rfl

set_option maxHeartbeats 2000000 in
/-- The edge directions: the positions at the wrapped source index minus those at the wrapped destination index. -/
theorem W1_v14 (c : Dev nD) : W1 m ρ c (Proc.devRef .tc main_v14)
    = val_main_v17 (m ((c : Thread nD τ).loc main_arg1)) (m ((c : Thread nD τ).loc main_arg2)) (m ((c : Thread nD τ).loc main_arg3)) := by
  show StableHlo.after hostOps0 (W0 m ρ c) (Proc.devRef .tc main_v14) = _
  after_results_simp <;> rfl

set_option maxHeartbeats 2000000 in
/-- The source features, gathered 64 wide at the wrapped source index. -/
theorem W1_v21 (c : Dev nD) : W1 m ρ c (Proc.devRef .tc main_v21)
    = Host.gather gather_S2x10000x64_S120000x1_S2x120000x64_02_1_n_n_1_1_2164 (m ((c : Thread nD τ).loc main_arg0))
        (val_main_v28 (m ((c : Thread nD τ).loc main_arg2))) := by
  show StableHlo.after hostOps0 (W0 m ρ c) (Proc.devRef .tc main_v21) = _
  after_results_simp <;> rfl

set_option maxHeartbeats 2000000 in
/-- The direction weights, transposed. -/
theorem W1_v22 (c : Dev nD) : W1 m ρ c (Proc.devRef .tc main_v22)
    = transpose S3x1024 [1, 0] (m ((c : Thread nD τ).loc main_arg4)) transposes_S1024x3_S3x1024_1_0 := by
  show StableHlo.after hostOps0 (W0 m ρ c) (Proc.devRef .tc main_v22) = _
  after_results_simp <;> rfl

/-! ## At the first region's exit: its output array is what its write-backs leave, and nothing else has moved -/

theorem W2_keeps (c : Dev nD) (b : Ref sig .tc) (hb : ∀ w, Pipeline.arrRef spec0 w ≠ b)
    (h0 : W1 m ρ c (Proc.devRef .tc b) = W0 m ρ c (Proc.devRef .tc b)) :
    W2 m ρ c (Proc.devRef .tc b) = W0 m ρ c (Proc.devRef .tc b) :=
  (W2_of_ne m ρ c b hb).trans h0

theorem W2_arg0 (c : Dev nD) : W2 m ρ c (Proc.devRef .tc main_arg0) = m ((c : Thread nD τ).loc main_arg0) :=
  W2_keeps m ρ c main_arg0 (by decide) (by first_stretch_keeps)
theorem W2_arg3 (c : Dev nD) : W2 m ρ c (Proc.devRef .tc main_arg3) = m ((c : Thread nD τ).loc main_arg3) :=
  W2_keeps m ρ c main_arg3 (by decide) (by first_stretch_keeps)
theorem W2_arg6 (c : Dev nD) : W2 m ρ c (Proc.devRef .tc main_arg6) = m ((c : Thread nD τ).loc main_arg6) :=
  W2_keeps m ρ c main_arg6 (by decide) (by first_stretch_keeps)
theorem W2_arg7 (c : Dev nD) : W2 m ρ c (Proc.devRef .tc main_arg7) = m ((c : Thread nD τ).loc main_arg7) :=
  W2_keeps m ρ c main_arg7 (by decide) (by first_stretch_keeps)
/-- The rectifier's bias is one of the first region's input windows: an input window's array ends as entered. -/
theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := (W2_arr m ρ c 3).trans (((dat0 (V1 m ρ) c).arrAt_in 3 rfl _).trans (A_eq0 (V1 m ρ) c 3))
    _ = m ((c : Thread nD τ).loc main_arg5) := W1_arg5 m ρ c

/-- The edge-message array as the first region leaves it. -/
theorem W2_v23 (c : Dev nD) : W2 m ρ c (Proc.devRef .tc main_v23) = (dat0 (V1 m ρ) c).arrAt 4 cfg0.N :=
  W2_arr m ρ c 4

/-! ## At the second region's entry -/

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by second_stretch_keeps
    _ = m ((c : Thread nD τ).loc main_arg0) := W2_arg0 m ρ c
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by second_stretch_keeps
    _ = m ((c : Thread nD τ).loc main_arg5) := W2_arg5 m ρ c
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by second_stretch_keeps
    _ = m ((c : Thread nD τ).loc main_arg7) := W2_arg7 m ρ c

/-- The aggregate: the first region's output rows scatter-added into zeros at the destination indices. -/
theorem W3_v27 (c : Dev nD) : W3 m ρ c (Proc.devRef .tc main_v27)
    = Host.scatterAdd (F := Ideal) (φ := .f32) scatter_S2x10000x1024_S120000x1_S2x120000x1024_02_1_1_1 (val_main_v33 (F := Ideal))
        (val_main_v32 (m ((c : Thread nD τ).loc main_arg3))) ((dat0 (V1 m ρ) c).arrAt 4 cfg0.N) := by
  show StableHlo.after hostOps1 (W2 m ρ c) (Proc.devRef .tc main_v27) = _
  after_results_simp
  rw [W2_arg3, W2_v23]
  rfl

/-- The output weights, transposed (and narrowed, which changes nothing on the extended reals). -/
theorem W3_v29 (c : Dev nD) : W3 m ρ c (Proc.devRef .tc main_v29)
    = truncf (F := Ideal) .bf16 (transpose S1024x256 [1, 0] (m ((c : Thread nD τ).loc main_arg6)) transposes_S256x1024_S1024x256_1_0) bitsLt_bf16_f32 := by
  show StableHlo.after hostOps1 (W2 m ρ c) (Proc.devRef .tc main_v29) = _
  after_results_simp
  rw [W2_arg6]

end Cert.KernelIdeal.HostGlue

end
-- ==== Proof.Spec.lean ====
/-
  The two whole-array functions the kernel's two regions compute, index by index, on the extended reals.

  `edgeMsg`: the message of edge `e` in batch `b`, channel `k` — the source node's feature `k mod 64` times the
  rectified affine form `d₀·w₀ₖ + d₁·w₁ₖ + d₂·w₂ₖ + bₖ` of the edge's direction `d`.
  `nodeOut`: output channel `o` of node `n` — the rectified `(∑ₖ (aggₖ + featₖ mod 64 · max(bₖ, 0)) · wₖₒ) + cₒ`.
-/
import proofs.«158358_j86723979640941_1_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

/-- The float zero the rectifiers compare against, kept as its word. -/
abbrev zero32 : EReal := Ideal.ofBits .f32 0x00000000#32

/-- Channel `k` of 1024 reads feature `k mod 64`: the sixteen copies laid side by side. -/
abbrev chan (k : Fin 1024) : Fin 64 := ⟨k.val % 64, Nat.mod_lt _ (by decide)⟩

/-- The edge messages: `feat[b, e, k mod 64] · max(((d₀·w₀ₖ + d₁·w₁ₖ) + d₂·w₂ₖ) + bₖ, 0)`. -/
def edgeMsg (d : S2x120000x3.Idx → EReal) (fs : S2x120000x64.Idx → EReal) (wT : S3x1024.Idx → EReal)
    (bd : S1024.Idx → EReal) : S2x120000x1024.Idx → EReal := fun i =>
  fs (ix3 (i 0) (i 1) (chan (i 2))) *
    max (((d (ix3 (i 0) (i 1) (0 : Fin 3)) * wT (ix2 (0 : Fin 3) (i 2))
          + d (ix3 (i 0) (i 1) (1 : Fin 3)) * wT (ix2 (1 : Fin 3) (i 2)))
          + d (ix3 (i 0) (i 1) (2 : Fin 3)) * wT (ix2 (2 : Fin 3) (i 2)))
          + bd (ix1 (i 2))) zero32

/-- The node outputs: `max((∑ₖ (agg[b,n,k] + feat[b,n,k mod 64] · max(bₖ, 0)) · w[k,o]) + c[o], 0)`. -/
def nodeOut (agg : S2x10000x1024.Idx → EReal) (x : S2x10000x64.Idx → EReal) (bd : S1024.Idx → EReal)
    (w : S1024x256.Idx → EReal) (bf : S256.Idx → EReal) : S2x10000x256.Idx → EReal := fun i =>
  max ((∑ k : Fin 1024, (agg (ix3 (i 0) (i 1) k) + x (ix3 (i 0) (i 1) (chan k)) * max (bd (ix1 k)) zero32) * w (ix2 k (i 2)))
        + bf (ix1 (i 2))) zero32

end Cert.KernelIdeal.Spec

end
-- ==== Proof.MsgRegion.lean ====
import proofs.«158358_j86723979640941_1_alg».proof.Proof.Gen.KernelIdeal.Frame
import proofs.«158358_j86723979640941_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.MsgRegion

open Cert.KernelIdeal Cert.KernelIdeal.Gen Idealize.ShloMosaic.ValueIdx

/-! ## The body's value at one index of its block -/

/-- A column `[a, 1]` broadcast to `[a, b]` reads, at `(p, c)`, the column's entry in row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Sixteen copies of one `[1600, 64]` block laid side by side along the channels: channel `q` of 1024 reads the
    block's channel `q mod 64`. -/
theorem tiled_apply {α : Type} (v : S1600x64.Idx → α)
    (h : Shape.Concatenates (([⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩] : List ((s : Shape) × (s.Idx → α))).map (·.1)) S1600x1024 1)
    (r : Fin 1600) (q : Fin 1024) :
    concatenate S1600x1024 1 [⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩, ⟨S1600x64, v⟩] h (ix2 r q) = v (ix2 r (Spec.chan q)) :=
  concatenate_replicate_apply (t := S1600x1024) (s₁ := S1600x64) 1 16 v h rfl (ix2 r q) (ix2 r (Spec.chan q)) rfl
    (fun b hb => by
      match b with
      | ⟨0, _⟩ => rfl
      | ⟨1, _⟩ => exact absurd rfl hb)

/-- THE BODY AT AN INDEX. Entry `(u, r, q)` of what the body stores is feature `q mod 64` of row `r` times the
    rectified affine form of row `r`'s three direction entries against column `q` of the weights, plus bias `q`. -/
theorem pay_apply (d : Vec Ideal S1x1600x3 .f32) (fs : Vec Ideal S1x1600x64 .f32) (wT : Vec Ideal S3x1024 .f32)
    (bd : Vec Ideal S1024 .f32) (u : Fin 1) (r : Fin 1600) (q : Fin 1024) :
    k0_pay1 (F := Ideal) d fs wT bd (ix3 u r q)
      = fs (ix3 (0 : Fin 1) r (Spec.chan q)) *
          max (((d (ix3 (0 : Fin 1) r (0 : Fin 3)) * wT (ix2 (0 : Fin 3) q)
                + d (ix3 (0 : Fin 1) r (1 : Fin 3)) * wT (ix2 (1 : Fin 3) q))
                + d (ix3 (0 : Fin 1) r (2 : Fin 3)) * wT (ix2 (2 : Fin 3) q))
                + bd (ix1 q)) Spec.zero32 := by
  unfold k0_pay1
  simp only [shapeCast_ab_1ab_apply, mulf_apply, maximumf_apply, addf_apply, broadcast_apply, tiled_apply,
    broadcastTo_col_apply, broadcastTo_1b_ab_apply, slice2_axis1_eq, slice2_axis0_eq, shapeCast_1ab_ab_apply,
    shapeCast_a_1a_apply, shapeCast_self]
  rfl

/-! ## The index maps, decided once over the grid

The grid is `[2, 75]`, point `t` at batch `t / 75` and row-block `t % 75`. The output window and the two
edge-indexed input windows sit at block `(t / 75, t % 75, 0)`; the weights and the bias are whole, at block 0. -/

theorem idx_facts : ∀ t : Fin cfg0.N,
    win0_4.index t (0 : Fin 3) = t.val / 75 ∧ win0_4.index t (1 : Fin 3) = t.val % 75 ∧ win0_4.index t (2 : Fin 3) = 0
    ∧ win0_0.index t (0 : Fin 3) = t.val / 75 ∧ win0_0.index t (1 : Fin 3) = t.val % 75 ∧ win0_0.index t (2 : Fin 3) = 0
    ∧ win0_1.index t (0 : Fin 3) = t.val / 75 ∧ win0_1.index t (1 : Fin 3) = t.val % 75 ∧ win0_1.index t (2 : Fin 3) = 0
    ∧ win0_2.index t (0 : Fin 2) = 0 ∧ win0_2.index t (1 : Fin 2) = 0
    ∧ win0_3.index t (0 : Fin 1) = 0 :=
  (by decide +kernel : ∀ t : Fin grid0.N, _)

/-! ## Where each window's block sits in its array

A block's coordinate on an axis is its block index times the block's size there, plus the coordinate inside. -/

/-- The output block of point `t`: batch `t / 75`, rows `(t % 75) · 1600 + r`, every channel. -/
theorem emb_out (t : Fin cfg0.N) (u : Fin 1) (r : Fin 1600) (q : Fin 1024) (b : Fin 2) (e : Fin 120000)
    (hb : b.val = t.val / 75) (he : e.val = t.val % 75 * 1600 + r.val) :
    ((cfg0.win 4).blk t).view.emb (ix3 u r q) = ix3 b e q := by
  obtain ⟨f0, f1, f2, -⟩ := idx_facts t
  funext a; apply Fin.ext
  match a with
  | ⟨0, _⟩ => show win0_4.index t (0 : Fin 3) * 1 + 1 * u.val = b.val; omega
  | ⟨1, _⟩ => show win0_4.index t (1 : Fin 3) * 1600 + 1 * r.val = e.val; omega
  | ⟨2, _⟩ => show win0_4.index t (2 : Fin 3) * 1024 + 1 * q.val = q.val; omega

/-- The direction block of point `t`: the same batch and rows as the output's, the three components. -/
theorem emb_dir (t : Fin cfg0.N) (r : Fin 1600) (k : Fin 3) (b : Fin 2) (e : Fin 120000)
    (hb : b.val = t.val / 75) (he : e.val = t.val % 75 * 1600 + r.val) :
    ((cfg0.win 0).blk t).view.emb (ix3 (0 : Fin 1) r k) = ix3 b e k := by
  obtain ⟨-, -, -, f0, f1, f2, -⟩ := idx_facts t
  funext a; apply Fin.ext
  match a with
  | ⟨0, _⟩ => show win0_0.index t (0 : Fin 3) * 1 + 1 * 0 = b.val; omega
  | ⟨1, _⟩ => show win0_0.index t (1 : Fin 3) * 1600 + 1 * r.val = e.val; omega
  | ⟨2, _⟩ => show win0_0.index t (2 : Fin 3) * 3 + 1 * k.val = k.val; omega

/-- The feature block of point `t`: the same batch and rows as the output's, the 64 features. -/
theorem emb_feat (t : Fin cfg0.N) (r : Fin 1600) (k : Fin 64) (b : Fin 2) (e : Fin 120000)
    (hb : b.val = t.val / 75) (he : e.val = t.val % 75 * 1600 + r.val) :
    ((cfg0.win 1).blk t).view.emb (ix3 (0 : Fin 1) r k) = ix3 b e k := by
  obtain ⟨-, -, -, -, -, -, f0, f1, f2, -⟩ := idx_facts t
  funext a; apply Fin.ext
  match a with
  | ⟨0, _⟩ => show win0_1.index t (0 : Fin 3) * 1 + 1 * 0 = b.val; omega
  | ⟨1, _⟩ => show win0_1.index t (1 : Fin 3) * 1600 + 1 * r.val = e.val; omega
  | ⟨2, _⟩ => show win0_1.index t (2 : Fin 3) * 64 + 1 * k.val = k.val; omega

/-- The weights' block is the whole `[3, 1024]` array at every point. -/
theorem emb_wts (t : Fin cfg0.N) (k : Fin 3) (q : Fin 1024) :
    ((cfg0.win 2).blk t).view.emb (ix2 k q) = ix2 k q := by
  obtain ⟨-, -, -, -, -, -, -, -, -, f0, f1, -⟩ := idx_facts t
  funext a; apply Fin.ext
  match a with
  | ⟨0, _⟩ => show win0_2.index t (0 : Fin 2) * 3 + 1 * k.val = k.val; omega
  | ⟨1, _⟩ => show win0_2.index t (1 : Fin 2) * 1024 + 1 * q.val = q.val; omega

/-- The bias's block is the whole `[1024]` array at every point. -/
theorem emb_bias (t : Fin cfg0.N) (q : Fin 1024) :
    ((cfg0.win 3).blk t).view.emb (ix1 q) = ix1 q := by
  obtain ⟨-, -, -, -, -, -, -, -, -, -, -, f0⟩ := idx_facts t
  funext a; apply Fin.ext
  match a with
  | ⟨0, _⟩ => show win0_3.index t (0 : Fin 1) * 1024 + 1 * q.val = q.val; omega

/-! ## What one point writes back -/

section Point
variable (V : (c : Dev nD) → (b : Ref sig .tc) → Buf (Elt Ideal) ((c : Thread nD τ).loc b)) (c : Dev nD) (t : Fin cfg0.N)

/-- Point `t`'s direction block at row `r`, component `k`, is the direction array at the output's batch and row. -/
theorem dir_at (r : Fin 1600) (k : Fin 3) (b : Fin 2) (e : Fin 120000)
    (hb : b.val = t.val / 75) (he : e.val = t.val % 75 * 1600 + r.val) :
    iblk0 V c 0 t (ix3 (0 : Fin 1) r k) = V c main_v14 (ix3 b e k) :=
  congrArg (V c main_v14) (emb_dir t r k b e hb he)

/-- Point `t`'s feature block at row `r`, feature `k`, is the feature array at the output's batch and row. -/
theorem feat_at (r : Fin 1600) (k : Fin 64) (b : Fin 2) (e : Fin 120000)
    (hb : b.val = t.val / 75) (he : e.val = t.val % 75 * 1600 + r.val) :
    iblk0 V c 1 t (ix3 (0 : Fin 1) r k) = V c main_v21 (ix3 b e k) :=
  congrArg (V c main_v21) (emb_feat t r k b e hb he)

/-- Point `t`'s weight block is the weight array. -/
theorem wts_at (k : Fin 3) (q : Fin 1024) : iblk0 V c 2 t (ix2 k q) = V c main_v22 (ix2 k q) :=
  congrArg (V c main_v22) (emb_wts t k q)

/-- Point `t`'s bias block is the bias array. -/
theorem bias_at (q : Fin 1024) : iblk0 V c 3 t (ix1 q) = V c main_arg5 (ix1 q) :=
  congrArg (V c main_arg5) (emb_bias t q)

/-- The spec at an index given by its coordinates. -/
theorem edgeMsg_apply (d : S2x120000x3.Idx → EReal) (fs : S2x120000x64.Idx → EReal) (wT : S3x1024.Idx → EReal)
    (bd : S1024.Idx → EReal) (b : Fin 2) (e : Fin 120000) (k : Fin 1024) :
    Spec.edgeMsg d fs wT bd (ix3 b e k)
      = fs (ix3 b e (Spec.chan k)) *
          max (((d (ix3 b e (0 : Fin 3)) * wT (ix2 (0 : Fin 3) k) + d (ix3 b e (1 : Fin 3)) * wT (ix2 (1 : Fin 3) k))
                + d (ix3 b e (2 : Fin 3)) * wT (ix2 (2 : Fin 3) k)) + bd (ix1 k)) Spec.zero32 := rfl

/-- Entry `j` of the body's result on point `t`'s input blocks is the spec's edge message at the array index under
    entry `j` of the output block: every input block is read at the same batch and row, or whole. -/
theorem point_eq (j : S1x1600x1024.Idx) :
    k0_pay1 (F := Ideal) (iblk0 V c 0 t) (iblk0 V c 1 t) (iblk0 V c 2 t) (iblk0 V c 3 t) j
      = Spec.edgeMsg (V c main_v14) (V c main_v21) (V c main_v22) (V c main_arg5) (((cfg0.win 4).blk t).view.emb j) := by
  obtain ⟨u, r, q, rfl⟩ : ∃ (u : Fin 1) (r : Fin 1600) (q : Fin 1024), j = ix3 u r q := ⟨j 0, j 1, j 2, eq_ix3 j⟩
  have ht : t.val < 150 := t.isLt
  have hr : r.val < 1600 := r.isLt
  obtain ⟨b, hb⟩ : ∃ b : Fin 2, b.val = t.val / 75 := ⟨⟨t.val / 75, by omega⟩, rfl⟩
  obtain ⟨e, he⟩ : ∃ e : Fin 120000, e.val = t.val % 75 * 1600 + r.val := ⟨⟨t.val % 75 * 1600 + r.val, by omega⟩, rfl⟩
  rw [pay_apply, emb_out t u r q b e hb he, edgeMsg_apply, feat_at V c t r _ b e hb he,
    dir_at V c t r 0 b e hb he, dir_at V c t r 1 b e hb he, dir_at V c t r 2 b e hb he,
    wts_at, wts_at, wts_at, bias_at]

end Point

/-! ## From the blocks to the array -/

theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl
theorem zeros1 : (![0] : Fin 1 → Nat) = fun _ => 0 :=
  funext fun a => match a with | ⟨0, _⟩ => rfl

section Array
variable (V : (c : Dev nD) → (b : Ref sig .tc) → Buf (Elt Ideal) ((c : Thread nD τ).loc b)) (c : Dev nD)

/-- WHAT POINT `t` WRITES BACK is block `t` of the spec's edge messages of the four arrays as the region finds them:
    the body loads its whole staging buffers and stores its result over the whole output buffer. -/
theorem flushed_eq (t : Fin cfg0.N) :
    (dat0 (F := Ideal) V c).flushed 4 t
      = ((cfg0.win 4).blk t).view.read (Elt Ideal)
          (Spec.edgeMsg (V c main_v14) (V c main_v21) (V c main_v22) (V c main_arg5)) := by
  show (cfg0.win 4).cut (grid0.coords t) ((dat0 (F := Ideal) V c).after 4 t) = _
  rw [after0_4]
  unfold out0_4
  rw [View.canon_unit_zero zeros3]
  simp only [View.ld_unit_zero (S := S1x1600x3) zeros3, View.ld_unit_zero (S := S1x1600x64) zeros3,
    View.ld_unit_zero (S := S3x1024) zeros2, View.ld_unit_zero (S := S1024) zeros1]
  funext j
  exact point_eq V c t j

end Array

/-- An index of the message array is in point `t`'s block iff each coordinate is in the block's range on its axis. -/
theorem mem_blk (t : Fin cfg0.N) (i : S2x120000x1024.Idx) :
    i ∈ ((cfg0.win 4).blk t).view.set ↔ ∀ a : Fin 3, win0_4.index t a * S1x1600x1024.size a ≤ (i a).val
      ∧ (i a).val < win0_4.index t a * S1x1600x1024.size a + S1x1600x1024.size a := by
  show i ∈ ((View.whole main_v23).slice (win0_4.rect t)).set ↔ _
  rw [View.set_slice_whole, Rect.mem_set_unit]
  exact Iff.rfl

/-- Every index of the message array is in some point's block: batch `b`, row `e` is written by point
    `b · 75 + e / 1600`. -/
theorem cover (i : S2x120000x1024.Idx) :
    ∃ t : Fin cfg0.N, (cfg0.win 4).flush t = true ∧ i ∈ ((cfg0.win 4).blk t).view.set := by
  have hi0 : (i 0).val < 2 := (i 0).isLt
  have hi1 : (i 1).val < 120000 := (i 1).isLt
  have hi2 : (i 2).val < 1024 := (i 2).isLt
  obtain ⟨t, ht⟩ : ∃ t : Fin cfg0.N, t.val = (i 0).val * 75 + (i 1).val / 1600 :=
    ⟨⟨(i 0).val * 75 + (i 1).val / 1600, by show _ < 150; omega⟩, rfl⟩
  obtain ⟨f0, f1, f2, -⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1600 ≤ (i 1).val ∧ (i 1).val < win0_4.index t (1 : Fin 3) * 1600 + 1600
    omega
  | ⟨2, _⟩ =>
    show win0_4.index t (2 : Fin 3) * 1024 ≤ (i 2).val ∧ (i 2).val < win0_4.index t (2 : Fin 3) * 1024 + 1024
    omega

/-- The first region's output array after its run, whatever the buffers hold when it is entered: the edge messages of
    the arrays its four input windows read. -/
theorem msg_arr (V : (c : Dev nD) → (b : Ref sig .tc) → Buf (Elt Ideal) ((c : Thread nD τ).loc b)) (c : Dev nD) :
    (dat0 (F := Ideal) V c).arrAt 4 cfg0.N
      = Spec.edgeMsg (V c main_v14) (V c main_v21) (V c main_v22) (V c main_arg5) :=
  (dat0 (F := Ideal) V c).arrAt_eq_of_cover 4
    (Spec.edgeMsg (V c main_v14) (V c main_v21) (V c main_v22) (V c main_arg5))
    (fun t _ => flushed_eq V c t) cover

end Cert.KernelIdeal.MsgRegion

end
-- ==== Proof.OutRegion.lean ====
import proofs.«158358_j86723979640941_1_alg».proof.Proof.Gen.KernelIdeal.Frame
import proofs.«158358_j86723979640941_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.OutRegion

open Cert.KernelIdeal Cert.KernelIdeal.Gen Idealize.ShloMosaic.ValueIdx

/-! ## The block product at an index -/

/-- The product's left index on its row axis is the output's row. -/
theorem lhs_prod_0 (i : S1000x256.Idx) (q : dot_S1000x1024_S1024x256_S1000x256_1_0_0_1_n_n.contr.Idx) :
    (dot_S1000x1024_S1024x256_S1000x256_1_0_0_1_n_n.lhsIdx i q 0).val = (i 0).val := by
  unfold DotDims.lhsIdx
  rw [dif_neg (show ¬(0 : Fin S1000x1024.rank) ∈ dot_S1000x1024_S1024x256_S1000x256_1_0_0_1_n_n.lhsBatch by decide), dif_pos (show (0 : Fin S1000x1024.rank) ∈ dot_S1000x1024_S1024x256_S1000x256_1_0_0_1_n_n.lhsNonContracting by decide)]
  rfl
/-- The product's left index on its contracted axis is the contraction position. -/
theorem lhs_prod_1 (i : S1000x256.Idx) (q : dot_S1000x1024_S1024x256_S1000x256_1_0_0_1_n_n.contr.Idx) :
    (dot_S1000x1024_S1024x256_S1000x256_1_0_0_1_n_n.lhsIdx i q 1).val = (q ⟨0, by decide⟩).val :=
  dot_S1000x1024_S1024x256_S1000x256_1_0_0_1_n_n.lhsIdx_val_of_single rfl i q
/-- The product's right index on its contracted axis is the contraction position. -/
theorem rhs_prod_0 (i : S1000x256.Idx) (q : dot_S1000x1024_S1024x256_S1000x256_1_0_0_1_n_n.contr.Idx) :
    (dot_S1000x1024_S1024x256_S1000x256_1_0_0_1_n_n.rhsIdx i q 0).val = (q ⟨0, by decide⟩).val :=
  dot_S1000x1024_S1024x256_S1000x256_1_0_0_1_n_n.rhsIdx_val_of_single rfl i q
/-- The product's right index on its column axis is the output's column. -/
theorem rhs_prod_1 (i : S1000x256.Idx) (q : dot_S1000x1024_S1024x256_S1000x256_1_0_0_1_n_n.contr.Idx) :
    (dot_S1000x1024_S1024x256_S1000x256_1_0_0_1_n_n.rhsIdx i q 1).val = (i 1).val := by
  unfold DotDims.rhsIdx
  rw [dif_neg (show ¬(1 : Fin S1024x256.rank) ∈ dot_S1000x1024_S1024x256_S1000x256_1_0_0_1_n_n.rhsBatch by decide), dif_pos (show (1 : Fin S1024x256.rank) ∈ dot_S1000x1024_S1024x256_S1000x256_1_0_0_1_n_n.rhsNonContracting by decide)]
  rfl

/-- A [1000,1024] by [1024,256] block product into a zero accumulator, read at (r, o): the sum over the 1024 channels
    of the row's entry times the column's. -/
theorem prod_apply (A : FVec Ideal S1000x1024 .bf16) (B : FVec Ideal S1024x256 .bf16) (r : Fin 1000) (o : Fin 256) :
    matmul dot_S1000x1024_S1024x256_S1000x256_1_0_0_1_n_n none A B (constant (F := Ideal) S1000x256 .f32 0x00000000#32) (ix2 r o)
      = ∑ k : Fin 1024, A (ix2 r k) * B (ix2 k o) := by
  show FloatOps.matmul dot_S1000x1024_S1024x256_S1000x256_1_0_0_1_n_n none A B (constant S1000x256 .f32 0x00000000#32) (ix2 r o) = _
  rw [Ideal.matmul_constant_zero_apply, ← Equiv.sum_comp (contrEquiv1 dot_S1000x1024_S1024x256_S1000x256_1_0_0_1_n_n 1024 rfl rfl).symm]
  refine Finset.sum_congr rfl fun k _ => ?_
  have hk := contrEquiv1_symm_val dot_S1000x1024_S1024x256_S1000x256_1_0_0_1_n_n 1024 rfl rfl k
  have el : dot_S1000x1024_S1024x256_S1000x256_1_0_0_1_n_n.lhsIdx (ix2 r o) ((contrEquiv1 dot_S1000x1024_S1024x256_S1000x256_1_0_0_1_n_n 1024 rfl rfl).symm k) = ix2 r k := funext fun a => Fin.ext (by
    match a with
    | ⟨0, _⟩ => exact lhs_prod_0 _ _
    | ⟨1, _⟩ => exact (lhs_prod_1 _ _).trans hk)
  have er : dot_S1000x1024_S1024x256_S1000x256_1_0_0_1_n_n.rhsIdx (ix2 r o) ((contrEquiv1 dot_S1000x1024_S1024x256_S1000x256_1_0_0_1_n_n 1024 rfl rfl).symm k) = ix2 k o := funext fun a => Fin.ext (by
    match a with
    | ⟨0, _⟩ => exact (rhs_prod_0 _ _).trans hk
    | ⟨1, _⟩ => exact rhs_prod_1 _ _)
  rw [el, er]

/-! ## The tiled features at an index -/

/-- Sixteen copies of one [1000,64] block laid side by side along the channel axis, read at (r, k): the block at
    (r, k mod 64). -/
theorem tile_apply (x : S1000x64.Idx → EReal)
    (h : Shape.Concatenates [S1000x64, S1000x64, S1000x64, S1000x64, S1000x64, S1000x64, S1000x64, S1000x64, S1000x64, S1000x64, S1000x64, S1000x64, S1000x64, S1000x64, S1000x64, S1000x64] S1000x1024 1) (r : Fin 1000) (k : Fin 1024) :
    concatenate S1000x1024 1 [⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩, ⟨S1000x64, x⟩] h (ix2 r k) = x (ix2 r (Spec.chan k)) :=
  concatenate_replicate_apply (t := S1000x1024) (s₁ := S1000x64) 1 16 x h rfl (ix2 r k) (ix2 r (Spec.chan k)) rfl
    (fun b => match b with
      | ⟨0, _⟩ => fun _ => rfl
      | ⟨1, _⟩ => fun hb => absurd rfl hb)

/-! ## The body's value at an index -/

/-- The body's result at row r, output channel o, of its five loaded blocks: the rectified sum over the 1024 channels of
    (aggregate + feature (k mod 64) times rectified bias) times the weight, plus the output bias. -/
theorem pay_apply (x0 : FVec Ideal S1x1000x1024 .f32) (x1 : FVec Ideal S1x1000x64 .f32) (x2 : FVec Ideal S1024 .f32)
    (x3 : FVec Ideal S1024x256 .bf16) (x4 : FVec Ideal S256 .f32) (u : Fin 1) (r : Fin 1000) (o : Fin 256) :
    k1_pay1 (F := Ideal) x0 x1 x2 x3 x4 (ix3 u r o)
      = max ((∑ k : Fin 1024, (x0 (ix3 (0 : Fin 1) r k) + x1 (ix3 (0 : Fin 1) r (Spec.chan k)) * max (x2 (ix1 k)) Spec.zero32) * x3 (ix2 k o))
          + x4 (ix1 o)) Spec.zero32 := by
  unfold k1_pay1
  rw [shapeCast_ab_1ab_apply, maximumf_apply, addf_apply, broadcast_apply, prod_apply, broadcastTo_1b_ab_apply,
    shapeCast_a_1a_apply]
  refine congrArg (fun s => max (s + x4 (ix1 o)) Spec.zero32) (Finset.sum_congr rfl fun k _ => ?_)
  rw [truncf_apply, addf_apply, mulf_apply, shapeCast_1ab_ab_apply, tile_apply, shapeCast_1ab_ab_apply,
    broadcastTo_1b_ab_apply, shapeCast_a_1a_apply, maximumf_apply, broadcast_apply, shapeCast_self]
  rfl

/-! ## The index maps, decided over the grid -/

/-- The zero offsets of a rank-3 block, as the constant function. -/
theorem hz3 : (![0, 0, 0] : Fin 3 → Nat) = fun _ => 0 := funext fun a => by fin_cases a <;> rfl
/-- The zero offsets of a rank-2 block, as the constant function. -/
theorem hz2 : (![0, 0] : Fin 2 → Nat) = fun _ => 0 := funext fun a => by fin_cases a <;> rfl
/-- The zero offset of a rank-1 block, as the constant function. -/
theorem hz1 : (![0] : Fin 1 → Nat) = fun _ => 0 := funext fun a => by fin_cases a <;> rfl

/-- The aggregate and feature windows move with the output window on the batch and row axes and stay at block 0 on the
    channel axis; the bias, weight and output-bias windows are whole; the output's block indices stay in their ranges. -/
theorem idx_facts : ∀ t : Fin cfg1.N,
    win1_0.index t (0 : Fin 3) = win1_5.index t (0 : Fin 3)
    ∧ win1_0.index t (1 : Fin 3) = win1_5.index t (1 : Fin 3)
    ∧ win1_0.index t (2 : Fin 3) = 0
    ∧ win1_1.index t (0 : Fin 3) = win1_5.index t (0 : Fin 3)
    ∧ win1_1.index t (1 : Fin 3) = win1_5.index t (1 : Fin 3)
    ∧ win1_1.index t (2 : Fin 3) = 0
    ∧ win1_2.index t (0 : Fin 1) = 0
    ∧ win1_3.index t (0 : Fin 2) = 0
    ∧ win1_3.index t (1 : Fin 2) = 0
    ∧ win1_4.index t (0 : Fin 1) = 0
    ∧ win1_5.index t (2 : Fin 3) = 0
    ∧ win1_5.index t (0 : Fin 3) ≤ 1
    ∧ win1_5.index t (1 : Fin 3) ≤ 9 :=
  (by decide +kernel : ∀ t : Fin grid1.N, _)

/-- Every (batch, row-block) pair is some point's output block. -/
theorem idx_onto : ∀ (q0 : Fin 2) (q1 : Fin 10), ∃ t : Fin cfg1.N, win1_5.index t = ![q0.val, q1.val, 0] :=
  (by decide +kernel : ∀ (q0 : Fin 2) (q1 : Fin 10), ∃ t : Fin grid1.N, win1_5.index t = ![q0.val, q1.val, 0])

/-! ## The body's value against the node outputs -/

/-- When the loaded blocks are the arrays' entries at batch b, node n (the row's) and every channel, the body's result at
    the row and output channel o is the node output at (b, n, o). -/
theorem pay_eq_nodeOut (A0 : S2x10000x1024.Idx → EReal) (A1 : S2x10000x64.Idx → EReal) (A2 : S1024.Idx → EReal)
    (A3 : S1024x256.Idx → EReal) (A4 : S256.Idx → EReal)
    (x0 : FVec Ideal S1x1000x1024 .f32) (x1 : FVec Ideal S1x1000x64 .f32) (x2 : FVec Ideal S1024 .f32)
    (x3 : FVec Ideal S1024x256 .bf16) (x4 : FVec Ideal S256 .f32)
    (b : Fin 2) (n : Fin 10000) (u : Fin 1) (r : Fin 1000) (o : Fin 256)
    (h0 : ∀ k : Fin 1024, x0 (ix3 (0 : Fin 1) r k) = A0 (ix3 b n k))
    (h1 : ∀ f : Fin 64, x1 (ix3 (0 : Fin 1) r f) = A1 (ix3 b n f))
    (h2 : ∀ k : Fin 1024, x2 (ix1 k) = A2 (ix1 k))
    (h3 : ∀ (k : Fin 1024) (q : Fin 256), x3 (ix2 k q) = A3 (ix2 k q))
    (h4 : ∀ q : Fin 256, x4 (ix1 q) = A4 (ix1 q)) :
    k1_pay1 (F := Ideal) x0 x1 x2 x3 x4 (ix3 u r o) = Spec.nodeOut A0 A1 A2 A3 A4 (ix3 b n o) := by
  rw [pay_apply, h4]
  unfold Spec.nodeOut
  refine congrArg (fun s => max (s + A4 (ix1 o)) Spec.zero32) (Finset.sum_congr rfl fun k _ => ?_)
  rw [h0, h1, h2, h3]

/-! ## The input blocks at a point, read off their arrays -/

/-- The aggregate block at point t, row r, channel k: the aggregate array at the output block's batch and row offset. -/
theorem agg_blk (V : (c : Dev nD) → (b : Ref sig .tc) → Buf (Elt Ideal) ((c : Thread nD τ).loc b)) (c : Dev nD) (t : Fin cfg1.N)
    (r : Fin 1000) (k : Fin 1024) (b : Fin 2) (n : Fin 10000) (hb : b.val = win1_5.index t (0 : Fin 3))
    (hn : n.val = win1_5.index t (1 : Fin 3) * 1000 + r.val) :
    iblk1 (F := Ideal) V c 0 t (ix3 (0 : Fin 1) r k) = V c main_v27 (ix3 b n k) := by
  obtain ⟨e00, e01, e02, e10, e11, e12, e2, e30, e31, e4, e52, b0, b1⟩ := idx_facts t
  unfold iblk1
  show V c main_v27 (((cfg1.win 0).blk t).view.emb (ix3 (0 : Fin 1) r k)) = V c main_v27 (ix3 b n k)
  refine congrArg (V c main_v27) (funext fun a => Fin.ext ?_)
  match a with
  | ⟨0, _⟩ => show win1_0.index t (0 : Fin 3) * 1 + 1 * 0 = b.val; omega
  | ⟨1, _⟩ => show win1_0.index t (1 : Fin 3) * 1000 + 1 * r.val = n.val; omega
  | ⟨2, _⟩ => show win1_0.index t (2 : Fin 3) * 1024 + 1 * k.val = k.val; omega

/-- The feature block at point t, row r, feature f: the feature array at the output block's batch and row offset. -/
theorem feat_blk (V : (c : Dev nD) → (b : Ref sig .tc) → Buf (Elt Ideal) ((c : Thread nD τ).loc b)) (c : Dev nD) (t : Fin cfg1.N)
    (r : Fin 1000) (f : Fin 64) (b : Fin 2) (n : Fin 10000) (hb : b.val = win1_5.index t (0 : Fin 3))
    (hn : n.val = win1_5.index t (1 : Fin 3) * 1000 + r.val) :
    iblk1 (F := Ideal) V c 1 t (ix3 (0 : Fin 1) r f) = V c main_arg0 (ix3 b n f) := by
  obtain ⟨e00, e01, e02, e10, e11, e12, e2, e30, e31, e4, e52, b0, b1⟩ := idx_facts t
  unfold iblk1
  show V c main_arg0 (((cfg1.win 1).blk t).view.emb (ix3 (0 : Fin 1) r f)) = V c main_arg0 (ix3 b n f)
  refine congrArg (V c main_arg0) (funext fun a => Fin.ext ?_)
  match a with
  | ⟨0, _⟩ => show win1_1.index t (0 : Fin 3) * 1 + 1 * 0 = b.val; omega
  | ⟨1, _⟩ => show win1_1.index t (1 : Fin 3) * 1000 + 1 * r.val = n.val; omega
  | ⟨2, _⟩ => show win1_1.index t (2 : Fin 3) * 64 + 1 * f.val = f.val; omega

/-- The bias block at any point is the whole bias array. -/
theorem bias_blk (V : (c : Dev nD) → (b : Ref sig .tc) → Buf (Elt Ideal) ((c : Thread nD τ).loc b)) (c : Dev nD) (t : Fin cfg1.N) (k : Fin 1024) :
    iblk1 (F := Ideal) V c 2 t (ix1 k) = V c main_arg5 (ix1 k) := by
  obtain ⟨e00, e01, e02, e10, e11, e12, e2, e30, e31, e4, e52, b0, b1⟩ := idx_facts t
  unfold iblk1
  show V c main_arg5 (((cfg1.win 2).blk t).view.emb (ix1 k)) = V c main_arg5 (ix1 k)
  refine congrArg (V c main_arg5) (funext fun a => Fin.ext ?_)
  match a with
  | ⟨0, _⟩ => show win1_2.index t (0 : Fin 1) * 1024 + 1 * k.val = k.val; omega

/-- The weight block at any point is the whole weight array. -/
theorem wgt_blk (V : (c : Dev nD) → (b : Ref sig .tc) → Buf (Elt Ideal) ((c : Thread nD τ).loc b)) (c : Dev nD) (t : Fin cfg1.N) (k : Fin 1024) (q : Fin 256) :
    iblk1 (F := Ideal) V c 3 t (ix2 k q) = V c main_v29 (ix2 k q) := by
  obtain ⟨e00, e01, e02, e10, e11, e12, e2, e30, e31, e4, e52, b0, b1⟩ := idx_facts t
  unfold iblk1
  show V c main_v29 (((cfg1.win 3).blk t).view.emb (ix2 k q)) = V c main_v29 (ix2 k q)
  refine congrArg (V c main_v29) (funext fun a => Fin.ext ?_)
  match a with
  | ⟨0, _⟩ => show win1_3.index t (0 : Fin 2) * 1024 + 1 * k.val = k.val; omega
  | ⟨1, _⟩ => show win1_3.index t (1 : Fin 2) * 256 + 1 * q.val = q.val; omega

/-- The output-bias block at any point is the whole output-bias array. -/
theorem obias_blk (V : (c : Dev nD) → (b : Ref sig .tc) → Buf (Elt Ideal) ((c : Thread nD τ).loc b)) (c : Dev nD) (t : Fin cfg1.N) (q : Fin 256) :
    iblk1 (F := Ideal) V c 4 t (ix1 q) = V c main_arg7 (ix1 q) := by
  obtain ⟨e00, e01, e02, e10, e11, e12, e2, e30, e31, e4, e52, b0, b1⟩ := idx_facts t
  unfold iblk1
  show V c main_arg7 (((cfg1.win 4).blk t).view.emb (ix1 q)) = V c main_arg7 (ix1 q)
  refine congrArg (V c main_arg7) (funext fun a => Fin.ext ?_)
  match a with
  | ⟨0, _⟩ => show win1_4.index t (0 : Fin 1) * 256 + 1 * q.val = q.val; omega

/-! ## What a point writes back -/

/-- Point t writes back block t of the node outputs of the five arrays as the region finds them. -/
theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal)
      (Spec.nodeOut (V c main_v27) (V c main_arg0) (V c main_arg5) (V c main_v29) (V c main_arg7)) := by
  show (cfg1.win 5).cut (grid1.coords t) ((dat1 V c).after 5 t) = _
  rw [after1_5]
  unfold out1_5
  rw [View.canon_unit_zero hz3]
  simp only [View.ld_unit_zero (S := S1x1000x1024) hz3, View.ld_unit_zero (S := S1x1000x64) hz3,
    View.ld_unit_zero (S := S1024) hz1, View.ld_unit_zero (S := S1024x256) hz2, View.ld_unit_zero (S := S256) hz1]
  obtain ⟨e00, e01, e02, e10, e11, e12, e2, e30, e31, e4, e52, b0, b1⟩ := idx_facts t
  funext j
  have hj0 : (j 0).val < 1 := (j 0).isLt
  have hj1 : (j 1).val < 1000 := (j 1).isLt
  have hj2 : (j 2).val < 256 := (j 2).isLt
  have hL : (win1 5).xinj (grid1.coords t) j = ix3 (⟨(j 0).val, hj0⟩ : Fin 1) (⟨(j 1).val, hj1⟩ : Fin 1000) (⟨(j 2).val, hj2⟩ : Fin 256) :=
    funext fun a => by match a with | ⟨0, _⟩ => rfl | ⟨1, _⟩ => rfl | ⟨2, _⟩ => rfl
  have hR : ((cfg1.win 5).blk t).view.emb j = ix3 (⟨win1_5.index t (0 : Fin 3), by omega⟩ : Fin 2)
      (⟨win1_5.index t (1 : Fin 3) * 1000 + (j 1).val, by omega⟩ : Fin 10000) (⟨(j 2).val, hj2⟩ : Fin 256) :=
    funext fun a => Fin.ext (by
      match a with
      | ⟨0, _⟩ => show win1_5.index t (0 : Fin 3) * 1 + 1 * (j 0).val = win1_5.index t (0 : Fin 3); omega
      | ⟨1, _⟩ => show win1_5.index t (1 : Fin 3) * 1000 + 1 * (j 1).val = win1_5.index t (1 : Fin 3) * 1000 + (j 1).val; omega
      | ⟨2, _⟩ => show win1_5.index t (2 : Fin 3) * 256 + 1 * (j 2).val = (j 2).val; omega)
  show k1_pay1 (iblk1 V c 0 t) (iblk1 V c 1 t) (iblk1 V c 2 t) (iblk1 V c 3 t) (iblk1 V c 4 t) ((win1 5).xinj (grid1.coords t) j)
    = Spec.nodeOut (V c main_v27) (V c main_arg0) (V c main_arg5) (V c main_v29) (V c main_arg7) (((cfg1.win 5).blk t).view.emb j)
  rw [hL, hR]
  exact pay_eq_nodeOut _ _ _ _ _ _ _ _ _ _ _ _ _ _ _
    (fun k => agg_blk V c t _ k _ _ rfl rfl) (fun f => feat_blk V c t _ f _ _ rfl rfl)
    (fun k => bias_blk V c t k) (fun k q => wgt_blk V c t k q) (fun q => obias_blk V c t q)

/-! ## The blocks cover the array -/

/-- An index of the output array is in point t's block iff each coordinate is in the block's range on its axis. -/
theorem mem_blk (t : Fin cfg1.N) (i : S2x10000x256.Idx) :
    i ∈ ((cfg1.win 5).blk t).view.set ↔ ∀ a : Fin 3, win1_5.index t a * S1x1000x256.size a ≤ (i a).val ∧ (i a).val < win1_5.index t a * S1x1000x256.size a + S1x1000x256.size a := by
  show i ∈ ((View.whole main_v30).slice (win1_5.rect t)).set ↔ _
  rw [View.set_slice_whole, Rect.mem_set_unit]
  exact Iff.rfl

/-- Every index of the output array is in the block of the point at its batch and its row block (row / 1000). -/
theorem cover (i : S2x10000x256.Idx) :
    ∃ t : Fin cfg1.N, (cfg1.win 5).flush t = true ∧ i ∈ ((cfg1.win 5).blk t).view.set := by
  have hi0 : (i 0).val < 2 := (i 0).isLt
  have hi1 : (i 1).val < 10000 := (i 1).isLt
  have hi2 : (i 2).val < 256 := (i 2).isLt
  obtain ⟨t, ht⟩ := idx_onto ⟨(i 0).val, hi0⟩ ⟨(i 1).val / 1000, by omega⟩
  have q0 : win1_5.index t (0 : Fin 3) = (i 0).val := congrFun ht 0
  have q1 : win1_5.index t (1 : Fin 3) = (i 1).val / 1000 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1000 ≤ (i 1).val ∧ (i 1).val < win1_5.index t (1 : Fin 3) * 1000 + 1000; omega
  | ⟨2, _⟩ => show win1_5.index t (2 : Fin 3) * 256 ≤ (i 2).val ∧ (i 2).val < win1_5.index t (2 : Fin 3) * 256 + 256; omega

/-- The second region's output array after its run, whatever the buffers hold when it is entered: the node outputs of
    the arrays its five input windows read. -/
theorem out_arr (V : (c : Dev nD) → (b : Ref sig .tc) → Buf (Elt Ideal) ((c : Thread nD τ).loc b)) (c : Dev nD) :
    (dat1 (F := Ideal) V c).arrAt 5 cfg1.N
      = Spec.nodeOut (V c main_v27) (V c main_arg0) (V c main_arg5) (V c main_v29) (V c main_arg7) :=
  (dat1 V c).arrAt_eq_of_cover 5
    (Spec.nodeOut (V c main_v27) (V c main_arg0) (V c main_arg5) (V c main_v29) (V c main_arg7))
    (fun t _ => flushed_eq V c t) cover

end Cert.KernelIdeal.OutRegion

end
-- ==== Proof.Tile.lean ====
import proofs.«158358_j86723979640941_1_alg».proof.Proof.Gen.ReferenceIdeal.Read
import proofs.«158358_j86723979640941_1_alg».proof.Proof.Spec
import Idealize.ShloMosaic.Lib.Pipeline.Value
import Idealize.ShloMosaic.Lib.ValueIdx
import Idealize.ShloMosaic.Lib.ValueIdxRank6

noncomputable section

open Idealize.ShloMosaic Idealize.ShloMosaic.TcCoe Idealize.SL.Sem

namespace Cert.Bridge

open Cert.ReferenceIdeal Cert.ReferenceIdeal.Read Idealize.ShloMosaic.ValueIdx

/-- The reference's sixteen-fold tiling of the node features along the channel axis, read at an index: channel `k` of
    1024 is feature `k mod 64`. -/
theorem stacked_apply (x0 : (⟨S2x10000x64, .f32⟩ : BufTy).Contents (Elt Ideal)) (i : S2x10000x1024.Idx) :
    val_main_v2 x0 i = x0 (ix3 (i 0) (i 1) (Cert.KernelIdeal.Spec.chan (i 2))) := by
  have h0 : (i 0).val < 2 := (i 0).isLt
  have h1 : (i 1).val < 10000 := (i 1).isLt
  have h2 : (i 2).val < 1024 := (i 2).isLt
  unfold val_main_v2
  -- the outer reshape keeps the row-major position: [2,10000,1024] at (b, n, k), position (b·10000 + n)·1024 + k,
  -- is [1,2,1,10000,16,64] at (0, b, 0, n, k / 64, k mod 64), since k = (k / 64)·64 + k mod 64
  refine (shapeCast_apply _ _ i
    (ix6 (⟨0, Nat.one_pos⟩ : Fin 1) (i 0) (⟨0, Nat.one_pos⟩ : Fin 1) (i 1)
      (⟨(i 2).val / 64, by omega⟩ : Fin 16) (Cert.KernelIdeal.Spec.chan (i 2)))
    (by rw [Shape.rowMajor_val_six, Shape.rowMajor_val_three]
        show ((((0 * 2 + (i 0).val) * 1 + 0) * 10000 + (i 1).val) * 16 + (i 2).val / 64) * 64 + (i 2).val % 64
          = ((i 0).val * 10000 + (i 1).val) * 1024 + (i 2).val
        omega)).trans ?_
  -- the broadcast along the axis of size 16 forgets the copy number k / 64
  refine (val_main_v1_apply x0 _).trans ?_
  unfold val_main_v0
  -- the inner reshape: [1,2,1,10000,1,64] at (0, b, 0, n, 0, k mod 64) has position (b·10000 + n)·64 + k mod 64,
  -- which is [2,10000,64] at (b, n, k mod 64)
  refine shapeCast_apply _ _ _ (ix3 (i 0) (i 1) (Cert.KernelIdeal.Spec.chan (i 2)))
    (by rw [Shape.rowMajor_val_three, Shape.rowMajor_val_six]
        show ((i 0).val * 10000 + (i 1).val) * 64 + (i 2).val % 64
          = ((((0 * 2 + (i 0).val) * 1 + 0) * 10000 + (i 1).val) * 1 + 0) * 64 + (i 2).val % 64
        omega)

end Cert.Bridge

end
-- ==== Proof.EdgeBridge.lean ====
import proofs.«158358_j86723979640941_1_alg».proof.Proof.Gen.ReferenceIdeal.Read
import proofs.«158358_j86723979640941_1_alg».proof.Proof.Gen.KernelIdeal
import proofs.«158358_j86723979640941_1_alg».proof.Proof.Spec
import proofs.«158358_j86723979640941_1_alg».proof.Proof.Tile
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.Bridge

open Cert.ReferenceIdeal Cert.ReferenceIdeal.Read Idealize.ShloMosaic.ValueIdx

/-! ## A gather of whole rows along the middle axis, read at an index

An operand `[B, N, C]` gathered at start indices `[E, 1]` with offset axes `[0, 2]`, the middle axis collapsed and
mapped by the one start-index component, slices `[B, 1, C]`: result element `(b, e, c)` is the operand at
`(b, r, c)`, `r` the start index of `e` read signed and clamped into `[0, N − 1]`. -/

section Rows
variable {α : Type}

/-- Those dimension numbers over an operand `[B, N, C]`, start indices `[E, 1]` and a result `[B, E, C]`. -/
abbrev rowDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- The gather read at `(b, e, k)`: the operand at `(b, r, k)`, `r = min (idx[e, 0] read signed) (N − 1)`. Per operand
    axis the index is start + batch coordinate + offset coordinate; there is no batching axis; axes 0 and 2 are offset
    axes (start 0, offset `b` resp. `k`), axis 1 is the collapsed one the start index names (offset 0). -/
theorem gather_row_apply {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (k : Fin C) :
    Host.gather (rowDims B N E C wf) x idx (ix3 b e k)
      = x (ix3 b ⟨min (idx (ix2 e (0 : Fin 1))).toInt.toNat (N - 1), by omega⟩ k) := by
  unfold Host.gather
  congr 1
  funext a
  refine Fin.ext ?_
  show (rowDims B N E C wf).start (ix3 b e k) idx a + (rowDims B N E C wf).batchCoord (ix3 b e k) a
      + (rowDims B N E C wf).offCoord (ix3 b e k) a = _
  rw [GatherDims.batchCoord_eq_zero _ _ _ List.not_mem_nil]
  match a with
  | ⟨0, _⟩ =>
    -- axis 0: not named by the start index map, kept, first of the kept axes: the result's coordinate on offset axis 0
    show (rowDims B N E C wf).start (ix3 b e k) idx (0 : Fin 3) + 0 + (rowDims B N E C wf).offCoord (ix3 b e k) (0 : Fin 3) = b.val
    unfold GatherDims.start
    rw [dif_neg (show ¬ (0 : Fin 3) ∈ ([1] : List (Fin 3)) by decide)]
    unfold GatherDims.offCoord
    rw [dif_pos ((GatherDims.mem_sKept _ _).mpr ⟨(show ¬ (0 : Fin 3) ∈ ([1] : List (Fin 3)) by decide), List.not_mem_nil⟩)]
    simp only [Nat.zero_add]
    rfl
  | ⟨1, _⟩ =>
    -- axis 1: collapsed (offset 0) and named by the start index map: the clamped start index, read at `[e, 0]`
    show (rowDims B N E C wf).start (ix3 b e k) idx (1 : Fin 3) + 0 + (rowDims B N E C wf).offCoord (ix3 b e k) (1 : Fin 3)
      = min (idx (ix2 e (0 : Fin 1))).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N E C wf).startIndexMap from List.mem_singleton.mpr rfl)]
    have hsi : (rowDims B N E C wf).siIdx (ix3 b e k) ⟨List.idxOf (1 : Fin 3) (rowDims B N E C wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨2, _⟩ =>
    -- axis 2: not named by the start index map, kept, second of the kept axes: the result's coordinate on offset axis 2
    show (rowDims B N E C wf).start (ix3 b e k) idx (2 : Fin 3) + 0 + (rowDims B N E C wf).offCoord (ix3 b e k) (2 : Fin 3) = k.val
    unfold GatherDims.start
    rw [dif_neg (show ¬ (2 : Fin 3) ∈ ([1] : List (Fin 3)) by decide)]
    unfold GatherDims.offCoord
    rw [dif_pos ((GatherDims.mem_sKept _ _).mpr ⟨(show ¬ (2 : Fin 3) ∈ ([1] : List (Fin 3)) by decide), List.not_mem_nil⟩)]
    simp only [Nat.zero_add]
    rfl

end Rows

/-! ## The two gathers of this program, the transposed weights, and the reference's composed indices -/

/-- The source row edge `e` reads: its start index, read signed and clamped into `[0, 9999]`. -/
abbrev srcRow (idx : IVec ⟨2, ![120000, 1]⟩ 32) (e : Fin 120000) : Fin 10000 :=
  ⟨min (idx (ix2 e (0 : Fin 1))).toInt.toNat (10000 - 1), by omega⟩

/-- The kernel's narrow gather at `(b, e, c)` is feature `c` of the source row of edge `e`. -/
theorem gatherNarrow_apply (x : (⟨3, ![2, 10000, 64]⟩ : Shape).Idx → EReal) (idx : IVec ⟨2, ![120000, 1]⟩ 32)
    (b : Fin 2) (e : Fin 120000) (c : Fin 64) :
    Host.gather Cert.KernelIdeal.gather_S2x10000x64_S120000x1_S2x120000x64_02_1_n_n_1_1_2164 x idx (ix3 b e c)
      = x (ix3 b (srcRow idx e) c) :=
  gather_row_apply (by decide) Cert.KernelIdeal.Gen.gather_S2x10000x64_S120000x1_S2x120000x64_02_1_n_n_1_1_2164_wf x idx b e c

/-- The reference's wide gather at `(b, e, k)` is channel `k` of the same source row. -/
theorem gatherWide_apply (y : (⟨3, ![2, 10000, 1024]⟩ : Shape).Idx → EReal) (idx : IVec ⟨2, ![120000, 1]⟩ 32)
    (b : Fin 2) (e : Fin 120000) (k : Fin 1024) :
    Host.gather gather_S2x10000x1024_S120000x1_S2x120000x1024_02_1_n_n_1_1_211024 y idx (ix3 b e k)
      = y (ix3 b (srcRow idx e) k) :=
  gather_row_apply (by decide) Cert.ReferenceIdeal.Gen.gather_S2x10000x1024_S120000x1_S2x120000x1024_02_1_n_n_1_1_211024_wf y idx b e k

/-- The transposed direction weights at `(j, k)` are the weights at `(k, j)`. -/
theorem wT_apply (x4 : (⟨S1024x3, .f32⟩ : BufTy).Contents (Elt Ideal)) (j : Fin 3) (k : Fin 1024) :
    transpose Cert.KernelIdeal.S3x1024 [1, 0] x4 Cert.KernelIdeal.Facts₀.transposes_S1024x3_S3x1024_1_0 (ix2 j k)
      = x4 (ix2 k j) :=
  transpose_apply [1, 0] x4 _ (ix2 j k) (ix2 k j) (fun a => match a with | ⟨0, _⟩ => rfl | ⟨1, _⟩ => rfl)

/-- The contraction's left index at `(b, e, k)`, term `j`: direction component `j` of edge `(b, e)`. -/
theorem lidx_eq (b : Fin 2) (e : Fin 120000) (k : Fin 1024) (j : Fin 3) : lidx_main_v18 (ix3 b e k) j = ix3 b e j :=
  funext fun a => Fin.ext (by match a with | ⟨0, _⟩ => rfl | ⟨1, _⟩ => rfl | ⟨2, _⟩ => rfl)

/-- Its right index: weight `(k, j)`. -/
theorem ridx_eq (b : Fin 2) (e : Fin 120000) (k : Fin 1024) (j : Fin 3) : ridx_main_v18 (ix3 b e k) j = ix2 k j :=
  funext fun a => Fin.ext (by match a with | ⟨0, _⟩ => rfl | ⟨1, _⟩ => rfl)

/-- The bias broadcast twice reads bias `k`. -/
theorem bidx_eq (b : Fin 2) (e : Fin 120000) (k : Fin 1024) : idx_main_v19 (idx_main_v20 (ix3 b e k)) = ix1 k :=
  funext fun a => Fin.ext (by match a with | ⟨0, _⟩ => rfl)

/-- The kernel's edge messages — of the directions, of the 64 source features gathered narrow, and of the transposed
    direction weights — are the reference's: its gather of the tiled features times the rectified
    `(∑_j d_j · W[k, j]) + b_k`. -/
theorem edgeMsg_ref (x0 : (⟨S2x10000x64, .f32⟩ : BufTy).Contents (Elt Ideal)) (x1 : (⟨S2x10000x3, .f32⟩ : BufTy).Contents (Elt Ideal))
    (x2 x3 : (⟨S120000, .i32⟩ : BufTy).Contents (Elt Ideal)) (x4 : (⟨S1024x3, .f32⟩ : BufTy).Contents (Elt Ideal))
    (x5 : (⟨S1024, .f32⟩ : BufTy).Contents (Elt Ideal)) :
    Cert.KernelIdeal.Spec.edgeMsg (val_main_v17 x1 x2 x3)
        (Host.gather Cert.KernelIdeal.gather_S2x10000x64_S120000x1_S2x120000x64_02_1_n_n_1_1_2164 x0 (val_main_v28 x2))
        (transpose Cert.KernelIdeal.S3x1024 [1, 0] x4 Cert.KernelIdeal.Facts₀.transposes_S1024x3_S3x1024_1_0) x5
      = val_main_v30 x0 x1 x2 x3 x4 x5 := by
  funext i
  obtain ⟨b, e, k, rfl⟩ : ∃ (b : Fin 2) (e : Fin 120000) (k : Fin 1024), i = ix3 b e k := ⟨i 0, i 1, i 2, eq_ix3 i⟩
  -- the reference at `(b, e, k)`: gathered tiled feature times max((∑_j d_j · W[k, j]) + bias_k, 0)
  rw [val_main_v30_apply, val_main_v22_apply, val_main_v21_apply, val_main_v18_apply, val_main_v20_apply, val_main_v19_apply,
    val_main_call0_v0_apply, val_main_call0_cst_apply]
  unfold val_main_v29
  -- its gather reads channel `k` of the source row, which the tiling makes feature `k mod 64`; the sum has three terms
  rw [gatherWide_apply, Cert.Bridge.stacked_apply, Fin.sum_univ_three]
  simp only [lidx_eq, ridx_eq, bidx_eq, Ideal.mulf_def, Ideal.addf_def, Ideal.maximumf_def, Ideal.ofBits_def]
  -- the kernel's side at `(b, e, k)`, its coordinates spelled out
  show Host.gather Cert.KernelIdeal.gather_S2x10000x64_S120000x1_S2x120000x64_02_1_n_n_1_1_2164 x0 (val_main_v28 x2)
        (ix3 b e (Cert.KernelIdeal.Spec.chan k))
      * max (((val_main_v17 x1 x2 x3 (ix3 b e (0 : Fin 3))
                * transpose Cert.KernelIdeal.S3x1024 [1, 0] x4 Cert.KernelIdeal.Facts₀.transposes_S1024x3_S3x1024_1_0 (ix2 (0 : Fin 3) k)
              + val_main_v17 x1 x2 x3 (ix3 b e (1 : Fin 3))
                * transpose Cert.KernelIdeal.S3x1024 [1, 0] x4 Cert.KernelIdeal.Facts₀.transposes_S1024x3_S3x1024_1_0 (ix2 (1 : Fin 3) k))
              + val_main_v17 x1 x2 x3 (ix3 b e (2 : Fin 3))
                * transpose Cert.KernelIdeal.S3x1024 [1, 0] x4 Cert.KernelIdeal.Facts₀.transposes_S1024x3_S3x1024_1_0 (ix2 (2 : Fin 3) k))
              + x5 (ix1 k)) Cert.KernelIdeal.Spec.zero32 = _
  -- the narrow gather reads feature `k mod 64` of the same source row; the transposed weights at `(j, k)` are `W[k, j]`
  rw [gatherNarrow_apply, wT_apply, wT_apply, wT_apply]

end Cert.Bridge

end
-- ==== Proof.NodeBridge.lean ====
import proofs.«158358_j86723979640941_1_alg».proof.Proof.Gen.ReferenceIdeal.Read
import proofs.«158358_j86723979640941_1_alg».proof.Proof.Gen.KernelIdeal
import proofs.«158358_j86723979640941_1_alg».proof.Proof.Spec
import proofs.«158358_j86723979640941_1_alg».proof.Proof.Tile
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.Bridge

open Cert.ReferenceIdeal Cert.ReferenceIdeal.Read Idealize.ShloMosaic.ValueIdx

namespace NodeOut

/-- The contraction reads its left operand at the node's row, channel `k`. -/
theorem lidx_main_v40_eq (i : S2x10000x256.Idx) (k : Fin 1024) :
    lidx_main_v40 i k = (ix3 (i 0) (i 1) k : S2x10000x1024.Idx) :=
  funext fun a => Fin.ext (by match a with | ⟨0, _⟩ => rfl | ⟨1, _⟩ => rfl | ⟨2, _⟩ => rfl)

/-- The contraction reads the output weights at row `o` (the output channel), column `k`. -/
theorem ridx_main_v40_eq (i : S2x10000x256.Idx) (k : Fin 1024) :
    ridx_main_v40 i k = (ix2 (i 2) k : S256x1024.Idx) :=
  funext fun a => Fin.ext (by match a with | ⟨0, _⟩ => rfl | ⟨1, _⟩ => rfl)

/-- The transposed (and identically narrowed) output weights at row `k`, column `o` are the weights at row `o`,
    column `k`. -/
theorem outWeights_apply (x6 : (⟨S256x1024, .f32⟩ : BufTy).Contents (Elt Ideal)) (k : Fin 1024) (o : Fin 256) :
    truncf (F := Ideal) .bf16 (transpose Cert.KernelIdeal.S1024x256 [1, 0] x6 Cert.KernelIdeal.Facts₀.transposes_S256x1024_S1024x256_1_0) Cert.KernelIdeal.Facts₀.bitsLt_bf16_f32 (ix2 k o)
      = x6 (ix2 o k) := by
  rw [truncf_apply]
  exact transpose_apply [1, 0] x6 Cert.KernelIdeal.Facts₀.transposes_S256x1024_S1024x256_1_0 (ix2 k o) (ix2 o k)
    (fun b => match b with | ⟨0, _⟩ => rfl | ⟨1, _⟩ => rfl)

end NodeOut

open NodeOut in
/-- The kernel's node outputs — of the aggregate the reference scatters, the node features, and the transposed output
    weights — are the reference's result. -/
theorem nodeOut_ref (x0 : (⟨S2x10000x64, .f32⟩ : BufTy).Contents (Elt Ideal)) (x1 : (⟨S2x10000x3, .f32⟩ : BufTy).Contents (Elt Ideal))
    (x2 x3 : (⟨S120000, .i32⟩ : BufTy).Contents (Elt Ideal)) (x4 : (⟨S1024x3, .f32⟩ : BufTy).Contents (Elt Ideal))
    (x5 : (⟨S1024, .f32⟩ : BufTy).Contents (Elt Ideal)) (x6 : (⟨S256x1024, .f32⟩ : BufTy).Contents (Elt Ideal))
    (x7 : (⟨S256, .f32⟩ : BufTy).Contents (Elt Ideal)) :
    Cert.KernelIdeal.Spec.nodeOut (val_main_v34 x0 x1 x2 x3 x4 x5) x0 x5
        (truncf (F := Ideal) .bf16 (transpose Cert.KernelIdeal.S1024x256 [1, 0] x6 Cert.KernelIdeal.Facts₀.transposes_S256x1024_S1024x256_1_0) Cert.KernelIdeal.Facts₀.bitsLt_bf16_f32) x7
      = val_main_v44 x0 x1 x2 x3 x4 x5 x6 x7 := by
  funext i
  rw [val_main_v44_apply, val_main_v43_apply, val_main_v40_apply, val_main_v42_apply, val_main_v41_apply,
    val_main_call2_v0_apply, val_main_call2_cst_apply]
  unfold Cert.KernelIdeal.Spec.nodeOut
  refine congrArg₂ max (congrArg₂ (· + ·) (Finset.sum_congr rfl fun k _ => ?_) ?_) ?_
  · -- term `k` of the contraction: the aggregate plus the tiled feature times the rectified bias, times the weight
    have hb : idx_main_v36 (idx_main_v37 (ix3 (i 0) (i 1) k : S2x10000x1024.Idx)) = ix1 k :=
      funext fun a => Fin.ext (by match a with | ⟨0, _⟩ => rfl)
    rw [lidx_main_v40_eq, ridx_main_v40_eq, val_main_v39_apply, val_main_v38_apply, stacked_apply, val_main_v37_apply,
      val_main_v36_apply, val_main_v35_apply, val_main_call1_v0_apply, val_main_call1_cst_apply, hb,
      outWeights_apply x6 k (i 2)]
    rfl
  · -- the output bias, broadcast along the batch and node axes
    exact congrArg x7 (funext fun a => Fin.ext (by match a with | ⟨0, _⟩ => rfl))
  · rfl

end Cert.Bridge

end
-- ==== Proof.KernelValue.lean ====
/-
  The kernel program's result, as a function of the launch memory, IS the reference's result term.

  The second region leaves the node outputs of what it finds at its entry; there the aggregate is the scatter-add of
  the first region's edge messages, which are the reference's messages; the node outputs of the reference's aggregate
  are the reference's result.
-/
import proofs.«158358_j86723979640941_1_alg».proof.Proof.HostGlue
import proofs.«158358_j86723979640941_1_alg».proof.Proof.MsgRegion
import proofs.«158358_j86723979640941_1_alg».proof.Proof.OutRegion
import proofs.«158358_j86723979640941_1_alg».proof.Proof.EdgeBridge
import proofs.«158358_j86723979640941_1_alg».proof.Proof.NodeBridge

noncomputable section

namespace Cert.KernelIdeal.KernelValue

open Cert.KernelIdeal Cert.KernelIdeal.Gen Cert.KernelIdeal.HostGlue
open Idealize.ShloMosaic Idealize.ShloMosaic.TcCoe Idealize.SL.Sem
open Cert.ReferenceIdeal.Read (val_main_v17 val_main_v28 val_main_v30 val_main_v32 val_main_v33 val_main_v34 val_main_v44)

variable (m : (ℓ : Loc nD τ sig) → Buf (Elt Ideal) ℓ) (ρ : Dev nD → PrngReg)

/-- The first region's output array: the reference's edge messages of the launch memory. -/
theorem msg_eq (c : Dev nD) : (dat0 (F := Ideal) (V1 m ρ) c).arrAt 4 cfg0.N
    = val_main_v30 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [MsgRegion.msg_arr (V1 m ρ) c]
  rw [show V1 m ρ c main_v14 = _ from W1_v14 m ρ c, show V1 m ρ c main_v21 = _ from W1_v21 m ρ c,
    show V1 m ρ c main_v22 = _ from W1_v22 m ρ c, show V1 m ρ c main_arg5 = _ from W1_arg5 m ρ c]
  exact Cert.Bridge.edgeMsg_ref _ _ _ _ _ _

/-- The aggregate the second region reads: the reference's. -/
theorem agg_eq (c : Dev nD) : W3 m ρ c (Proc.devRef .tc main_v27)
    = val_main_v34 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W3_v27, msg_eq]
  rfl

/-- The result array at the last boundary: the reference's result term of the launch memory. -/
theorem result_eq (c : Dev nD) : W4 m ρ c (Proc.devRef .tc main_v30)
    = val_main_v44 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [W4_arr m ρ c 5, OutRegion.out_arr (V3 m ρ) c]
  rw [show V3 m ρ c main_v27 = _ from agg_eq m ρ c, show V3 m ρ c main_arg0 = _ from W3_arg0 m ρ c,
    show V3 m ρ c main_arg5 = _ from W3_arg5 m ρ c, show V3 m ρ c main_v29 = _ from W3_v29 m ρ c,
    show V3 m ρ c main_arg7 = _ from W3_arg7 m ρ c]
  exact Cert.Bridge.nodeOut_ref _ _ _ _ _ _ _ _

end Cert.KernelIdeal.KernelValue

end
-- ==== Proof.lean ====
/-
  A graph convolution over 120000 directed edges of 10000 nodes in two batches: each edge carries its source node's
  64 features, tiled sixteen times to 1024 channels, gated channel by channel by the rectified affine form
  `W_dir · (pos_src − pos_dst) + b_dir` of the edge's direction; the messages are summed into their destination
  nodes, the node's own tiled features gated by `max(b_dir, 0)` are added, and a 1024 × 256 linear layer with bias
  and rectifier gives the output.

  The kernel computes the messages in one grid of edge blocks (the three-term form `(d₀w₀ + d₁w₁) + d₂w₂` in place
  of the reference's contraction over the three coordinates, and the source features gathered 64 wide and tiled
  inside the block where the reference tiles first and gathers 1024 wide), scatter-adds them on the host exactly as
  the reference does, and computes the self term, the matrix product and the rectifier in a second grid of node
  blocks. On the extended reals the two programs are the same function index by index: the two sums run in the same
  order and no distributive law is used, so the finiteness of the inputs is never opened.

  The three frames are the generated ones (the reference's is its generated run with the result dropped); the
  idealization rewrote nothing; the value claim names the reference's own result term as the common value.
-/
import proofs.«158358_j86723979640941_1_alg».proof.Defs
import proofs.«158358_j86723979640941_1_alg».proof.Proof.Gen.Kernel
import proofs.«158358_j86723979640941_1_alg».proof.Proof.Gen.Kernel.Frame
import proofs.«158358_j86723979640941_1_alg».proof.Proof.Gen.KernelIdeal
import proofs.«158358_j86723979640941_1_alg».proof.Proof.Gen.KernelIdeal.Frame
import proofs.«158358_j86723979640941_1_alg».proof.Proof.Gen.ReferenceIdeal
import proofs.«158358_j86723979640941_1_alg».proof.Proof.Gen.ReferenceIdeal.Run
import proofs.«158358_j86723979640941_1_alg».proof.Proof.Gen.ReferenceIdeal.Read
import proofs.«158358_j86723979640941_1_alg».proof.Proof.Gen.Pre_finite_inputs
import proofs.«158358_j86723979640941_1_alg».proof.Proof.KernelRun
import proofs.«158358_j86723979640941_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result term of the (agreeing) argument arrays. -/
theorem algebraic : Cert.algebraic_KernelIdeal_ReferenceIdeal := by
  intro m ρ m' ρ' _ hagree
  refine ⟨fun c => Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v44_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
